-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S1000000x32 : Shape := ⟨2, ![1000000, 32]⟩
abbrev S64x32 : Shape := ⟨2, ![64, 32]⟩
abbrev S100000 : Shape := ⟨1, ![100000]⟩
abbrev S1000000x1 : Shape := ⟨2, ![1000000, 1]⟩
abbrev S96x128 : Shape := ⟨2, ![96, 128]⟩
abbrev S128 : Shape := ⟨1, ![128]⟩
abbrev S128x64 : Shape := ⟨2, ![128, 64]⟩
abbrev S64 : Shape := ⟨1, ![64]⟩
abbrev S160x128 : Shape := ⟨2, ![160, 128]⟩
abbrev S_ : Shape := ⟨0, ![]⟩
abbrev S1x1000000 : Shape := ⟨2, ![1, 1000000]⟩
abbrev S1000000 : Shape := ⟨1, ![1000000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x32 : S_.BroadcastsInDim S1000000x32 (![] : Fin 0 → Fin S1000000x32.rank)
  reducesTo_S1000000x32_S_d0_1 : S1000000x32.ReducesTo [0, 1] S_
  bcast_S_S64x32 : S_.BroadcastsInDim S64x32 (![] : Fin 0 → Fin S64x32.rank)
  reducesTo_S64x32_S_d0_1 : S64x32.ReducesTo [0, 1] S_
  bcast_S_S1000000x1 : S_.BroadcastsInDim S1000000x1 (![] : Fin 0 → Fin S1000000x1.rank)
  reducesTo_S1000000x1_S_d0_1 : S1000000x1.ReducesTo [0, 1] S_
  bcast_S_S96x128 : S_.BroadcastsInDim S96x128 (![] : Fin 0 → Fin S96x128.rank)
  reducesTo_S96x128_S_d0_1 : S96x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S160x128 : S_.BroadcastsInDim S160x128 (![] : Fin 0 → Fin S160x128.rank)
  reducesTo_S160x128_S_d0_1 : S160x128.ReducesTo [0, 1] S_
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  reducesTo_S1000000_S_d0 : S1000000.ReducesTo [0] S_
  bcast_S_S100000 : S_.BroadcastsInDim S100000 (![] : Fin 0 → Fin S100000.rank)
  reducesTo_S100000_S_d0 : S100000.ReducesTo [0] S_

variable [Facts]

def fn_part4 {F : FTy → Type} [FloatOps F] (main_arg4 : IVec S100000 32) (main_v64 : IVec S_ 1) (main_v66 : IVec S100000 1) (main_v67 : IVec S100000 32) : IVec S_ 1 :=
  let main_v68 : IVec S100000 1 := cmpi .slt main_arg4 main_v67
  let main_v69 : IVec S100000 1 := andi main_v66 main_v68
  let main_c_26 : IVec S_ 1 := constantI S_ 1 1#1
  let main_v70 : IVec S_ 1 := (fun x v => Host.reduce IntOp.andi x v reducesTo_S100000_S_d0 h_S_) main_v69 main_c_26
  let main_v71 : IVec S_ 1 := andi main_v64 main_v70
  main_v71

def fn_part3 {F : FTy → Type} [FloatOps F] (main_arg1 : IVec S2x1000000 32) (main_arg4 : IVec S100000 32) (main_arg13 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : IVec S1x1000000 32 := (extractStridedSlice S1x1000000 ![0, 0] · slices_S2x1000000_S1x1000000_0_0) main_arg1
  let main_v60 : IVec S1000000 32 := shapeCast S1000000 main_v59 shapeCasts_S1x1000000_S1000000
  let main_c_22 : IVec S_ 32 := constantI S_ 32 0#32
  let main_v61 : IVec S1000000 32 := broadcastInDim S1000000 ![] bcast_S_S1000000 main_c_22
  let main_v62 : IVec S1000000 1 := cmpi .sge main_v60 main_v61
  let main_c_23 : IVec S_ 1 := constantI S_ 1 1#1
  let main_v63 : IVec S_ 1 := (fun x v => Host.reduce IntOp.andi x v reducesTo_S1000000_S_d0 h_S_) main_v62 main_c_23
  let main_v64 : IVec S_ 1 := andi main_v58 main_v63
  let main_c_24 : IVec S_ 32 := constantI S_ 32 0#32
  let main_v65 : IVec S100000 32 := broadcastInDim S100000 ![] bcast_S_S100000 main_c_24
  let main_v66 : IVec S100000 1 := cmpi .sge main_arg4 main_v65
  let main_c_25 : IVec S_ 32 := constantI S_ 32 64#32
  let main_v67 : IVec S100000 32 := broadcastInDim S100000 ![] bcast_S_S100000 main_c_25
  fn_part4 (F := F) main_arg4 main_v64 main_v66 main_v67

def fn_part2 {F : FTy → Type} [FloatOps F] (main_arg1 : IVec S2x1000000 32) (main_arg4 : IVec S100000 32) (main_arg9 : FVec F S64 .f32) (main_arg10 : FVec F S160x128 .f32) (main_arg11 : FVec F S128 .f32) (main_arg12 : FVec F S128x64 .f32) (main_arg13 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S160x128 .f32 := Host.absf main_arg10
  let main_cst_14 : FVec F S_ .f32 := constant S_ .f32 0x7F800000#32
  let main_v40 : FVec F S160x128 .f32 := broadcastInDim S160x128 ![] bcast_S_S160x128 main_cst_14
  let main_v41 : IVec S160x128 1 := cmpf .olt main_v39 main_v40
  let main_c_15 : IVec S_ 1 := constantI S_ 1 1#1
  let main_v42 : IVec S_ 1 := (fun x v => Host.reduce IntOp.andi x v reducesTo_S160x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg12
  let main_cst_18 : FVec F S_ .f32 := constant S_ .f32 0x7F800000#32
  let main_v50 : FVec F S128x64 .f32 := broadcastInDim S128x64 ![] bcast_S_S128x64 main_cst_18
  fn_part3 (F := F) main_arg1 main_arg4 main_arg13 main_v48 main_v49 main_v50

def fn_part1 {F : FTy → Type} [FloatOps F] (main_arg1 : IVec S2x1000000 32) (main_arg4 : IVec S100000 32) (main_arg6 : FVec F S96x128 .f32) (main_arg7 : FVec F S128 .f32) (main_arg8 : FVec F S128x64 .f32) (main_arg9 : FVec F S64 .f32) (main_arg10 : FVec F S160x128 .f32) (main_arg11 : FVec F S128 .f32) (main_arg12 : FVec F S128x64 .f32) (main_arg13 : FVec F S64 .f32) (main_v13 : IVec S_ 1) (main_v16 : IVec S1000000x1 1) : IVec S_ 1 :=
  let main_c_5 : IVec S_ 1 := constantI S_ 1 1#1
  let main_v17 : IVec S_ 1 := (fun x v => Host.reduce IntOp.andi x v reducesTo_S1000000x1_S_d0_1 h_S_) main_v16 main_c_5
  let main_v18 : IVec S_ 1 := andi main_v13 main_v17
  let main_v19 : FVec F S96x128 .f32 := Host.absf main_arg6
  let main_cst_6 : FVec F S_ .f32 := constant S_ .f32 0x7F800000#32
  let main_v20 : FVec F S96x128 .f32 := broadcastInDim S96x128 ![] bcast_S_S96x128 main_cst_6
  let main_v21 : IVec S96x128 1 := cmpf .olt main_v19 main_v20
  let main_c_7 : IVec S_ 1 := constantI S_ 1 1#1
  let main_v22 : IVec S_ 1 := (fun x v => Host.reduce IntOp.andi x v reducesTo_S96x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg1 main_arg4 main_arg9 main_arg10 main_arg11 main_arg12 main_arg13 main_v33

def fn {F : FTy → Type} [FloatOps F] (main_arg0 : FVec F S100000x64 .f32) (main_arg1 : IVec S2x1000000 32) (main_arg2 : FVec F S1000000x32 .f32) (main_arg3 : FVec F S64x32 .f32) (main_arg4 : IVec S100000 32) (main_arg5 : FVec F S1000000x1 .f32) (main_arg6 : FVec F S96x128 .f32) (main_arg7 : FVec F S128 .f32) (main_arg8 : FVec F S128x64 .f32) (main_arg9 : FVec F S64 .f32) (main_arg10 : FVec F S160x128 .f32) (main_arg11 : FVec F S128 .f32) (main_arg12 : FVec F S128x64 .f32) (main_arg13 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x32 .f32 := Host.absf main_arg2
  let main_cst_0 : FVec F S_ .f32 := constant S_ .f32 0x7F800000#32
  let main_v5 : FVec F S1000000x32 .f32 := broadcastInDim S1000000x32 ![] bcast_S_S1000000x32 main_cst_0
  let main_v6 : IVec S1000000x32 1 := cmpf .olt main_v4 main_v5
  let main_c_1 : IVec S_ 1 := constantI S_ 1 1#1
  let main_v7 : IVec S_ 1 := (fun x v => Host.reduce IntOp.andi x v reducesTo_S1000000x32_S_d0_1 h_S_) main_v6 main_c_1
  let main_v8 : IVec S_ 1 := andi main_v3 main_v7
  let main_v9 : FVec F S64x32 .f32 := Host.absf main_arg3
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S1000000x1 .f32 := Host.absf main_arg5
  let main_cst_4 : FVec F S_ .f32 := constant S_ .f32 0x7F800000#32
  let main_v15 : FVec F S1000000x1 .f32 := broadcastInDim S1000000x1 ![] bcast_S_S1000000x1 main_cst_4
  let main_v16 : IVec S1000000x1 1 := cmpf .olt main_v14 main_v15
  fn_part1 (F := F) main_arg1 main_arg4 main_arg6 main_arg7 main_arg8 main_arg9 main_arg10 main_arg11 main_arg12 main_arg13 main_v13 main_v16
-- ==== Kernel.lean ====
abbrev S100000x64 : Shape := ⟨2, ![100000, 64]⟩
abbrev S2x1000000 : Shape := ⟨2, ![2, 1000000]⟩
abbrev S1000000x32 : Shape := ⟨2, ![1000000, 32]⟩
abbrev S64x32 : Shape := ⟨2, ![64, 32]⟩
abbrev S100000 : Shape := ⟨1, ![100000]⟩
abbrev S1000000x1 : Shape := ⟨2, ![1000000, 1]⟩
abbrev S96x128 : Shape := ⟨2, ![96, 128]⟩
abbrev S128 : Shape := ⟨1, ![128]⟩
abbrev S128x64 : Shape := ⟨2, ![128, 64]⟩
abbrev S64 : Shape := ⟨1, ![64]⟩
abbrev S160x128 : Shape := ⟨2, ![160, 128]⟩
abbrev S1x1000000 : Shape := ⟨2, ![1, 1000000]⟩
abbrev S1000000 : Shape := ⟨1, ![1000000]⟩
abbrev S100000x1 : Shape := ⟨2, ![100000, 1]⟩
abbrev S1000000x64 : Shape := ⟨2, ![1000000, 64]⟩
abbrev S64x128 : Shape := ⟨2, ![64, 128]⟩
abbrev S32x128 : Shape := ⟨2, ![32, 128]⟩
abbrev S8000x64 : Shape := ⟨2, ![8000, 64]⟩
abbrev S8000x32 : Shape := ⟨2, ![8000, 32]⟩
abbrev S8000x1 : Shape := ⟨2, ![8000, 1]⟩
abbrev S8000x128 : Shape := ⟨2, ![8000, 128]⟩
abbrev S1x128 : Shape := ⟨2, ![1, 128]⟩
abbrev S1x64 : Shape := ⟨2, ![1, 64]⟩
abbrev S_ : Shape := ⟨0, ![]⟩
abbrev S5000x64 : Shape := ⟨2, ![5000, 64]⟩
abbrev S5000x1 : Shape := ⟨2, ![5000, 1]⟩
abbrev S5000x32 : Shape := ⟨2, ![5000, 32]⟩
abbrev S5000x128 : Shape := ⟨2, ![5000, 128]⟩

abbrev nBuf : Space → Nat
  | .hbm => 39
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000x32, .f32⟩
  | .hbm, ⟨3, _⟩ => ⟨S64x32, .f32⟩
  | .hbm, ⟨4, _⟩ => ⟨S100000, .i32⟩
  | .hbm, ⟨5, _⟩ => ⟨S1000000x1, .f32⟩
  | .hbm, ⟨6, _⟩ => ⟨S96x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S160x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S1x1000000, .i32⟩
  | .hbm, ⟨15, _⟩ => ⟨S1000000, .i32⟩
  | .hbm, ⟨16, _⟩ => ⟨S1x1000000, .i32⟩
  | .hbm, ⟨17, _⟩ => ⟨S1000000, .i32⟩
  | .hbm, ⟨18, _⟩ => ⟨S100000x1, .i32⟩
  | .hbm, ⟨19, _⟩ => ⟨S100000x64, .bf16⟩
  | .hbm, ⟨20, _⟩ => ⟨S1000000x1, .i32⟩
  | .hbm, ⟨21, _⟩ => ⟨S1000000x64, .bf16⟩
  | .hbm, ⟨22, _⟩ => ⟨S64x128, .f32⟩
  | .hbm, ⟨23, _⟩ => ⟨S32x128, .f32⟩
  | .hbm, ⟨24, _⟩ => ⟨S1000000x64, .f32⟩
  | .hbm, ⟨25, _⟩ => ⟨S_, .f32⟩
  | .hbm, ⟨26, _⟩ => ⟨S100000x64, .f32⟩
  | .hbm, ⟨27, _⟩ => ⟨S1000000x1, .i32⟩
  | .hbm, ⟨28, _⟩ => ⟨S100000x64, .f32⟩
  | .hbm, ⟨29, _⟩ => ⟨S_, .f32⟩
  | .hbm, ⟨30, _⟩ => ⟨S1000000x1, .f32⟩
  | .hbm, ⟨31, _⟩ => ⟨S_, .f32⟩
  | .hbm, ⟨32, _⟩ => ⟨S100000x1, .f32⟩
  | .hbm, ⟨33, _⟩ => ⟨S1000000x1, .i32⟩
  | .hbm, ⟨34, _⟩ => ⟨S100000x1, .f32⟩
  | .hbm, ⟨35, _⟩ => ⟨S64x128, .f32⟩
  | .hbm, ⟨36, _⟩ => ⟨S64x128, .f32⟩
  | .hbm, ⟨37, _⟩ => ⟨S32x128, .f32⟩
  | .hbm, ⟨38, _⟩ => ⟨S100000x64, .f32⟩
  | .local _ .vmem, ⟨0, _⟩ => ⟨S8000x64, .bf16⟩
  | .local _ .vmem, ⟨1, _⟩ => ⟨S8000x64, .bf16⟩
  | .local _ .vmem, ⟨2, _⟩ => ⟨S8000x32, .f32⟩
  | .local _ .vmem, ⟨3, _⟩ => ⟨S8000x32, .f32⟩
  | .local _ .vmem, ⟨4, _⟩ => ⟨S8000x1, .f32⟩
  | .local _ .vmem, ⟨5, _⟩ => ⟨S8000x1, .f32⟩
  | .local _ .vmem, ⟨6, _⟩ => ⟨S64x128, .f32⟩
  | .local _ .vmem, ⟨7, _⟩ => ⟨S32x128, .f32⟩
  | .local _ .vmem, ⟨8, _⟩ => ⟨S128, .f32⟩
  | .local _ .vmem, ⟨9, _⟩ => ⟨S128x64, .f32⟩
  | .local _ .vmem, ⟨10, _⟩ => ⟨S64, .f32⟩
  | .local _ .vmem, ⟨11, _⟩ => ⟨S8000x64, .f32⟩
  | .local _ .vmem, ⟨12, _⟩ => ⟨S8000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S5000x1, .i32⟩
  | .local _ .vmem, ⟨20, _⟩ => ⟨S5000x1, .i32⟩
  | .local _ .vmem, ⟨21, _⟩ => ⟨S64x32, .f32⟩
  | .local _ .vmem, ⟨22, _⟩ => ⟨S64x128, .f32⟩
  | .local _ .vmem, ⟨23, _⟩ => ⟨S64x128, .f32⟩
  | .local _ .vmem, ⟨24, _⟩ => ⟨S32x128, .f32⟩
  | .local _ .vmem, ⟨25, _⟩ => ⟨S128, .f32⟩
  | .local _ .vmem, ⟨26, _⟩ => ⟨S128x64, .f32⟩
  | .local _ .vmem, ⟨27, _⟩ => ⟨S64, .f32⟩
  | .local _ .vmem, ⟨28, _⟩ => ⟨S5000x64, .f32⟩
  | .local _ .vmem, ⟨29, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_call0_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg11_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem11_1 : DmaSem sig := 29

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S5000x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  shapeCasts_S100000_S100000x1 : S100000.ShapeCasts S100000x1
  bitsLt_bf16_f32 : FTy.bits .bf16 < FTy.bits .f32
  bcast_S1000000_S1000000x1_0 : S1000000.BroadcastsInDim S1000000x1 (![0] : Fin 1 → Fin S1000000x1.rank)
  slices_S96x128_S64x128_0_0 : S96x128.Slices ![0, 0] S64x128
  slices_S96x128_S32x128_64_0 : S96x128.Slices ![64, 0] S32x128
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x32_S8000x32_0_0 : ∀ a, (![0, 0] : Fin 2 → Nat) a + S8000x32.size a ≤ S8000x32.size a
  h_S8000x32 : 0 < S8000x32.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  inb_S8000x1_S8000x1_0_0 : ∀ a, (![0, 0] : Fin 2 → Nat) a + S8000x1.size a ≤ S8000x1.size a
  h_S8000x1 : 0 < S8000x1.numel
  broadcasts_S8000x1_S8000x64 : S8000x1.Broadcasts S8000x64
  bcast_S_S100000x64 : S_.BroadcastsInDim S100000x64 (![] : Fin 0 → Fin S100000x64.rank)
  bcast_S_S1000000x1 : S_.BroadcastsInDim S1000000x1 (![] : Fin 0 → Fin S1000000x1.rank)
  bcast_S_S100000x1 : S_.BroadcastsInDim S100000x1 (![] : Fin 0 → Fin S100000x1.rank)
  slices_S160x128_S64x128_0_0 : S160x128.Slices ![0, 0] S64x128
  slices_S160x128_S64x128_64_0 : S160x128.Slices ![64, 0] S64x128
  slices_S160x128_S32x128_128_0 : S160x128.Slices ![128, 0] S32x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  iota_S5000x64_d1_w32 : S5000x64.Iotas .tc 32 [1]
  natLt_1_32 : 1 < 32
  inb_S64x32_S64x32_0_0 : ∀ a, (![0, 0] : Fin 2 → Nat) a + S64x32.size a ≤ S64x32.size a
  h_S64x32 : 0 < S64x32.numel
  broadcasts_S1x128_S5000x128 : S1x128.Broadcasts S5000x128
  broadcasts_S1x64_S5000x64 : S1x64.Broadcasts S5000x64
  gather_S100000x64_S1000000x1_S1000000x64_1_0_n_n_0_1_164_wf : GatherDims.WF S100000x64 S1000000x1 S1000000x64 [1] [0] [] [0] [] 1 ![1, 64]
  dot_S8000x64_S64x128_S8000x128_1_0_0_1_n_n_wf : DotDims.WF S8000x64 S64x128 S8000x128 [1] [0] [0] [1] [] []
  dot_S8000x32_S32x128_S8000x128_1_0_0_1_n_n_wf : DotDims.WF S8000x32 S32x128 S8000x128 [1] [0] [0] [1] [] []
  dot_S8000x128_S128x64_S8000x64_1_0_0_1_n_n_wf : DotDims.WF S8000x128 S128x64 S8000x64 [1] [0] [0] [1] [] []
  scatter_S100000x64_S1000000x1_S1000000x64_1_0_0_1_wf : ScatterDims.WF S100000x64 S1000000x1 S1000000x64 [1] [0] [0] 1
  scatter_S100000x1_S1000000x1_S1000000x1_1_0_0_1_wf : ScatterDims.WF S100000x1 S1000000x1 S1000000x1 [1] [0] [0] 1
  dot_S5000x64_S64x32_S5000x32_1_0_0_1_n_n_wf : DotDims.WF S5000x64 S64x32 S5000x32 [1] [0] [0] [1] [] []
  dot_S5000x64_S64x128_S5000x128_1_0_0_1_n_n_wf : DotDims.WF S5000x64 S64x128 S5000x128 [1] [0] [0] [1] [] []
  dot_S5000x32_S32x128_S5000x128_1_0_0_1_n_n_wf : DotDims.WF S5000x32 S32x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1000000x64.size a
  hwx0_0 : ∀ i : grid0.Coords, EltTy.bits .bf16 = 32 ∨ (Rect.block (s := S1000000x64) S8000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x32.size a ≤ S1000000x32.size a
  hwx0_1 : ∀ i : grid0.Coords, EltTy.bits .f32 = 32 ∨ (Rect.block (s := S1000000x32) S8000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S1000000x1.size a
  hwx0_2 : ∀ i : grid0.Coords, EltTy.bits .f32 = 32 ∨ (Rect.block (s := S1000000x1) S8000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x128.size a
  hwx0_4 : ∀ i : grid0.Coords, EltTy.bits .f32 = 32 ∨ (Rect.block (s := S32x128) S32x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8000x64.size a ≤ S1000000x64.size a
  hwx0_8 : ∀ i : grid0.Coords, EltTy.bits .f32 = 32 ∨ (Rect.block (s := S1000000x64) S8000x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .i32 = 32 ∨ (Rect.block (s := S100000x1) S5000x1.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x32.size a ≤ S64x32.size a
  hwx1_4 : ∀ i : grid1.Coords, EltTy.bits .f32 = 32 ∨ (Rect.block (s := S64x32) S64x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .f32 = 32 ∨ (Rect.block (s := S64x128) S64x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x128.size a ≤ S64x128.size a
  hwx1_6 : ∀ i : grid1.Coords, EltTy.bits .f32 = 32 ∨ (Rect.block (s := S64x128) S64x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x128.size a ≤ S32x128.size a
  hwx1_7 : ∀ i : grid1.Coords, EltTy.bits .f32 = 32 ∨ (Rect.block (s := S32x128) S32x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x64.size a ≤ S128x64.size a
  hwx1_9 : ∀ i : grid1.Coords, EltTy.bits .f32 = 32 ∨ (Rect.block (s := S128x64) S128x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64.size a ≤ S64.size a
  hwx1_10 : ∀ i : grid1.Coords, EltTy.bits .f32 = 32 ∨ (Rect.block (s := S64) S64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x64.size a ≤ S100000x64.size a
  hwx1_11 : ∀ i : grid1.Coords, EltTy.bits .f32 = 32 ∨ (Rect.block (s := S100000x64) S5000x64.size (cc1_transform_11 i) (hinb1_11 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v6) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S8000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S32x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S8000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S64x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S64x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S64x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19) S32x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg12) S128x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg13) S64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v20) S5000x64.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S1000000x32 : Shape := ⟨2, ![1000000, 32]⟩
abbrev S64x32 : Shape := ⟨2, ![64, 32]⟩
abbrev S100000 : Shape := ⟨1, ![100000]⟩
abbrev S1000000x1 : Shape := ⟨2, ![1000000, 1]⟩
abbrev S96x128 : Shape := ⟨2, ![96, 128]⟩
abbrev S128 : Shape := ⟨1, ![128]⟩
abbrev S128x64 : Shape := ⟨2, ![128, 64]⟩
abbrev S64 : Shape := ⟨1, ![64]⟩
abbrev S160x128 : Shape := ⟨2, ![160, 128]⟩
abbrev S1x1000000 : Shape := ⟨2, ![1, 1000000]⟩
abbrev S1000000 : Shape := ⟨1, ![1000000]⟩
abbrev S_ : Shape := ⟨0, ![]⟩
abbrev S1000000x64 : Shape := ⟨2, ![1000000, 64]⟩
abbrev S1000000x96 : Shape := ⟨2, ![1000000, 96]⟩
abbrev S1000000x128 : Shape := ⟨2, ![1000000, 128]⟩
abbrev S1x128 : Shape := ⟨2, ![1, 128]⟩
abbrev S1x64 : Shape := ⟨2, ![1, 64]⟩
abbrev S100000x1 : Shape := ⟨2, ![100000, 1]⟩
abbrev S100000x32 : Shape := ⟨2, ![100000, 32]⟩
abbrev S100000x160 : Shape := ⟨2, ![100000, 160]⟩
abbrev S100000x128 : Shape := ⟨2, ![100000, 128]⟩

abbrev nBuf : Space → Nat
  | .hbm => 77
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000x32, .f32⟩
  | .hbm, ⟨3, _⟩ => ⟨S64x32, .f32⟩
  | .hbm, ⟨4, _⟩ => ⟨S100000, .i32⟩
  | .hbm, ⟨5, _⟩ => ⟨S1000000x1, .f32⟩
  | .hbm, ⟨6, _⟩ => ⟨S96x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S160x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S1x1000000, .i32⟩
  | .hbm, ⟨15, _⟩ => ⟨S1000000, .i32⟩
  | .hbm, ⟨16, _⟩ => ⟨S1x1000000, .i32⟩
  | .hbm, ⟨17, _⟩ => ⟨S1000000, .i32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x64, .f32⟩
  | .hbm, ⟨27, _⟩ => ⟨S1000000x96, .f32⟩
  | .hbm, ⟨28, _⟩ => ⟨S1000000x128, .f32⟩
  | .hbm, ⟨29, _⟩ => ⟨S1x128, .f32⟩
  | .hbm, ⟨30, _⟩ => ⟨S1000000x128, .f32⟩
  | .hbm, ⟨31, _⟩ => ⟨S1000000x128, .f32⟩
  | .hbm, ⟨32, _⟩ => ⟨S_, .f32⟩
  | .hbm, ⟨33, _⟩ => ⟨S1000000x128, .f32⟩
  | .hbm, ⟨34, _⟩ => ⟨S1000000x128, .f32⟩
  | .hbm, ⟨35, _⟩ => ⟨S1000000x64, .f32⟩
  | .hbm, ⟨36, _⟩ => ⟨S1x64, .f32⟩
  | .hbm, ⟨37, _⟩ => ⟨S1000000x64, .f32⟩
  | .hbm, ⟨38, _⟩ => ⟨S1000000x64, .f32⟩
  | .hbm, ⟨39, _⟩ => ⟨S1000000x64, .f32⟩
  | .hbm, ⟨40, _⟩ => ⟨S1000000x64, .f32⟩
  | .hbm, ⟨41, _⟩ => ⟨S_, .f32⟩
  | .hbm, ⟨42, _⟩ => ⟨S100000x64, .f32⟩
  | .hbm, ⟨43, _⟩ => ⟨S1000000x1, .i32⟩
  | .hbm, ⟨44, _⟩ => ⟨S100000x64, .f32⟩
  | .hbm, ⟨45, _⟩ => ⟨S_, .f32⟩
  | .hbm, ⟨46, _⟩ => ⟨S1000000x1, .f32⟩
  | .hbm, ⟨47, _⟩ => ⟨S_, .f32⟩
  | .hbm, ⟨48, _⟩ => ⟨S100000x1, .f32⟩
  | .hbm, ⟨49, _⟩ => ⟨S1000000x1, .i32⟩
  | .hbm, ⟨50, _⟩ => ⟨S100000x1, .f32⟩
  | .hbm, ⟨51, _⟩ => ⟨S_, .f32⟩
  | .hbm, ⟨52, _⟩ => ⟨S100000x1, .f32⟩
  | .hbm, ⟨53, _⟩ => ⟨S100000x1, .f32⟩
  | .hbm, ⟨54, _⟩ => ⟨S100000x64, .f32⟩
  | .hbm, ⟨55, _⟩ => ⟨S100000x64, .f32⟩
  | .hbm, ⟨56, _⟩ => ⟨S_, .i32⟩
  | .hbm, ⟨57, _⟩ => ⟨S100000, .i32⟩
  | .hbm, ⟨58, _⟩ => ⟨S100000, .i1⟩
  | .hbm, ⟨59, _⟩ => ⟨S_, .i32⟩
  | .hbm, ⟨60, _⟩ => ⟨S100000, .i32⟩
  | .hbm, ⟨61, _⟩ => ⟨S100000, .i32⟩
  | .hbm, ⟨62, _⟩ => ⟨S100000, .i32⟩
  | .hbm, ⟨63, _⟩ => ⟨S100000x1, .i32⟩
  | .hbm, ⟨64, _⟩ => ⟨S100000x32, .f32⟩
  | .hbm, ⟨65, _⟩ => ⟨S100000x160, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call0_cst : Ref sig .tc := ⟨.hbm, 32, rfl⟩
abbrev main_call0_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_1 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_4 : Ref sig .tc := ⟨.hbm, 56, rfl⟩
abbrev main_v34 : Ref sig .tc := ⟨.hbm, 57, rfl⟩
abbrev main_v35 : Ref sig .tc := ⟨.hbm, 58, rfl⟩
abbrev main_c_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_call1_cst : Ref sig .tc := ⟨.hbm, 70, rfl⟩
abbrev main_call1_v0 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x32_S1000000x96_d1 : Shape.Concatenates [S1000000x64, S1000000x32] S1000000x96 1
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S_S1000000x1 : S_.BroadcastsInDim S1000000x1 (![] : Fin 0 → Fin S1000000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x64_S100000x64_S100000x32_S100000x160_d1 : Shape.Concatenates [S100000x64, S100000x64, S100000x32] S100000x160 1
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1x64_S100000x64_0_1 : S1x64.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  dot_S1000000x96_S96x128_S1000000x128_1_0_0_1_n_n_wf : DotDims.WF S1000000x96 S96x128 S1000000x128 [1] [0] [0] [1] [] []
  dot_S1000000x128_S128x64_S1000000x64_1_0_0_1_n_n_wf : DotDims.WF S1000000x128 S128x64 S1000000x64 [1] [0] [0] [1] [] []
  scatter_S100000x64_S1000000x1_S1000000x64_1_0_0_1_wf : ScatterDims.WF S100000x64 S1000000x1 S1000000x64 [1] [0] [0] 1
  scatter_S100000x1_S1000000x1_S1000000x1_1_0_0_1_wf : ScatterDims.WF S100000x1 S1000000x1 S1000000x1 [1] [0] [0] 1
  gather_S64x32_S100000x1_S100000x32_1_0_n_n_0_1_132_wf : GatherDims.WF S64x32 S100000x1 S100000x32 [1] [0] [] [0] [] 1 ![1, 32]
  dot_S100000x160_S160x128_S100000x128_1_0_0_1_n_n_wf : DotDims.WF S100000x160 S160x128 S100000x128 [1] [0] [0] [1] [] []
  dot_S100000x128_S128x64_S100000x64_1_0_0_1_n_n_wf : DotDims.WF S100000x128 S128x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x96_S96x128_S1000000x128_1_0_0_1_n_n : DotDims S1000000x96 S96x128 S1000000x128 where
  lhsContracting := [1]
  rhsContracting := [0]
  lhsNonContracting := [0]
  rhsNonContracting := [1]
  lhsBatch := []
  rhsBatch := []
  wf := dot_S1000000x96_S96x128_S1000000x128_1_0_0_1_n_n_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def gather_S64x32_S100000x1_S100000x32_1_0_n_n_0_1_132 : GatherDims S64x32 S100000x1 S100000x32 where
  offsetDims := [1]
  collapsedSliceDims := [0]
  operandBatchingDims := []
  startIndicesBatchingDims := []
  startIndexMap := [0]
  indexVectorDim := 1
  sliceSizes := ![1, 32]
  wf := gather_S64x32_S100000x1_S100000x32_1_0_n_n_0_1_132_wf
def dot_S100000x160_S160x128_S100000x128_1_0_0_1_n_n : DotDims S100000x160 S160x128 S100000x128 where
  lhsContracting := [1]
  rhsContracting := [0]
  lhsNonContracting := [0]
  rhsNonContracting := [1]
  lhsBatch := []
  rhsBatch := []
  wf := dot_S100000x160_S160x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  The two multilayer perceptrons of the node model as whole-array functions over the extended reals, index by
  index, and the three laws that join the kernel's arrangement of them to the reference's:
  a product with a concatenated operand splits into the products with the pieces; the row a one-hot vector
  picks out of a table is the table's row; a select on "the index is negative" of an index that is not negative is
  the index.
  Nothing here names a program.

  The message of edge e, component j:
      msg[e, j] = (sum_h relu(sum_k xr[e,k] w1a[k,h] + sum_k ea[e,k] w1b[k,h] + b1[h]) w2[h,j] + b2[j]) * wts[e]
  where xr is the row of x gathered for the edge's source node. The update of node n, component j:
      out[n, j] = sum_h relu(sum_k x[n,k] w1a[k,h] + sum_k recv[n,k] w1b[k,h] + sum_k urow[n,k] w1c[k,h] + b1[h]) w2[h,j] + b2[j]
  where recv[n,k] = sums[n,k] / max(cnt[n], 1) and urow[n, .] is the row of u that the node's graph id picks.
-/
import Idealize.ShloMosaic.Lib.ValueIdx
import Idealize.ShloMosaic.PureOps.Ideal.Laws

noncomputable section

open scoped BigOperators

namespace Cert.NodeModel

open Idealize.ShloMosaic Idealize.ShloMosaic.ValueIdx

/-- A matrix of extended reals. -/
abbrev Mat (n m : Nat) := (⟨2, ![n, m]⟩ : Shape).Idx → EReal
/-- A vector of extended reals. -/
abbrev Vc (n : Nat) := (⟨1, ![n]⟩ : Shape).Idx → EReal

/-! ## The message perceptron -/

/-- The hidden unit h of edge e: the rectified affine map of the gathered source row and the edge's features. -/
def msgHid {E : Nat} (xr : Mat E 64) (ea : Mat E 32) (w1a : Mat 64 128) (w1b : Mat 32 128) (b1 : Vc 128)
    (e : Fin E) (h : Fin 128) : EReal :=
  max ((∑ k : Fin 64, xr (ix2 e k) * w1a (ix2 k h)) + (∑ k : Fin 32, ea (ix2 e k) * w1b (ix2 k h)) + b1 (ix1 h)) 0

/-- Component j of edge e's weighted message. -/
def msgAt {E : Nat} (xr : Mat E 64) (ea : Mat E 32) (wts : Mat E 1) (w1a : Mat 64 128) (w1b : Mat 32 128) (b1 : Vc 128)
    (w2 : Mat 128 64) (b2 : Vc 64) (e : Fin E) (j : Fin 64) : EReal :=
  ((∑ h : Fin 128, msgHid xr ea w1a w1b b1 e h * w2 (ix2 h j)) + b2 (ix1 j)) * wts (ix2 e (0 : Fin 1))

/-- The messages of all edges. -/
def msgArr {E : Nat} (xr : Mat E 64) (ea : Mat E 32) (wts : Mat E 1) (w1a : Mat 64 128) (w1b : Mat 32 128) (b1 : Vc 128)
    (w2 : Mat 128 64) (b2 : Vc 64) : Mat E 64 :=
  fun i => msgAt xr ea wts w1a w1b b1 w2 b2 (i 0) (i 1)

theorem msgArr_ix2 {E : Nat} (xr : Mat E 64) (ea : Mat E 32) (wts : Mat E 1) (w1a : Mat 64 128) (w1b : Mat 32 128)
    (b1 : Vc 128) (w2 : Mat 128 64) (b2 : Vc 64) (e : Fin E) (j : Fin 64) :
    msgArr xr ea wts w1a w1b b1 w2 b2 (ix2 e j) = msgAt xr ea wts w1a w1b b1 w2 b2 e j := rfl

/-! ## The update perceptron -/

/-- The mean of a node's incoming messages: their sum over the count, the count read as at least one. -/
def recvAt {N : Nat} (sums : Mat N 64) (cnt : Mat N 1) (n : Fin N) (k : Fin 64) : EReal :=
  Ideal.div (sums (ix2 n k)) (max (cnt (ix2 n (0 : Fin 1))) 1)

/-- The row of the table u that node n's graph id picks, as the one-hot product computes it: the sum over the
    table's rows g of [id = g] times the row's entry. -/
def urowAt {N : Nat} (nb : (⟨2, ![N, 1]⟩ : Shape).Idx → BitVec 32) (u : Mat 64 32) (n : Fin N) (k : Fin 32) : EReal :=
  ∑ g : Fin 64, (if nb (ix2 n (0 : Fin 1)) = BitVec.ofNat 32 g.val then (1 : EReal) else 0) * u (ix2 g k)

/-- The hidden unit h of node n. -/
def updHid {N : Nat} (x : Mat N 64) (sums : Mat N 64) (cnt : Mat N 1) (nb : (⟨2, ![N, 1]⟩ : Shape).Idx → BitVec 32)
    (u : Mat 64 32) (w1a w1b : Mat 64 128) (w1c : Mat 32 128) (b1 : Vc 128) (n : Fin N) (h : Fin 128) : EReal :=
  max (((∑ k : Fin 64, x (ix2 n k) * w1a (ix2 k h)) + (∑ k : Fin 64, recvAt sums cnt n k * w1b (ix2 k h)))
        + (∑ k : Fin 32, urowAt nb u n k * w1c (ix2 k h)) + b1 (ix1 h)) 0

/-- Component j of node n's update. -/
def updAt {N : Nat} (x : Mat N 64) (sums : Mat N 64) (cnt : Mat N 1) (nb : (⟨2, ![N, 1]⟩ : Shape).Idx → BitVec 32)
    (u : Mat 64 32) (w1a w1b : Mat 64 128) (w1c : Mat 32 128) (b1 : Vc 128) (w2 : Mat 128 64) (b2 : Vc 64)
    (n : Fin N) (j : Fin 64) : EReal :=
  (∑ h : Fin 128, updHid x sums cnt nb u w1a w1b w1c b1 n h * w2 (ix2 h j)) + b2 (ix1 j)

/-- The updates of all nodes. -/
def updArr {N : Nat} (x : Mat N 64) (sums : Mat N 64) (cnt : Mat N 1) (nb : (⟨2, ![N, 1]⟩ : Shape).Idx → BitVec 32)
    (u : Mat 64 32) (w1a w1b : Mat 64 128) (w1c : Mat 32 128) (b1 : Vc 128) (w2 : Mat 128 64) (b2 : Vc 64) : Mat N 64 :=
  fun i => updAt x sums cnt nb u w1a w1b w1c b1 w2 b2 (i 0) (i 1)

theorem updArr_ix2 {N : Nat} (x : Mat N 64) (sums : Mat N 64) (cnt : Mat N 1) (nb : (⟨2, ![N, 1]⟩ : Shape).Idx → BitVec 32)
    (u : Mat 64 32) (w1a w1b : Mat 64 128) (w1c : Mat 32 128) (b1 : Vc 128) (w2 : Mat 128 64) (b2 : Vc 64)
    (n : Fin N) (j : Fin 64) :
    updArr x sums cnt nb u w1a w1b w1c b1 w2 b2 (ix2 n j) = updAt x sums cnt nb u w1a w1b w1c b1 w2 b2 n j := rfl

/-! ## The laws -/

/-- A sum over 96 terms is the sum over its first 64 plus the sum over its last 32. -/
theorem sum_split_96 (f : Fin 96 → EReal) :
    ∑ k : Fin 96, f k = (∑ k : Fin 64, f (Fin.castAdd 32 k)) + ∑ k : Fin 32, f (Fin.natAdd 64 k) :=
  Fin.sum_univ_add (a := 64) (b := 32) f

/-- A sum over 160 terms is the sums over its first 64, its next 64 and its last 32. -/
theorem sum_split_160 (f : Fin 160 → EReal) :
    ∑ k : Fin 160, f k
      = ((∑ k : Fin 64, f (Fin.castAdd 32 (Fin.castAdd 64 k))) + ∑ k : Fin 64, f (Fin.castAdd 32 (Fin.natAdd 64 k)))
        + ∑ k : Fin 32, f (Fin.natAdd 128 k) := by
  rw [Fin.sum_univ_add (a := 128) (b := 32) f, Fin.sum_univ_add (a := 64) (b := 64) (fun k => f (Fin.castAdd 32 k))]

/-- A graph id in the table's range picks the table's row: of the one-hot sum only the id's own term is left. -/
theorem urowAt_of_range {N : Nat} (nb : (⟨2, ![N, 1]⟩ : Shape).Idx → BitVec 32) (u : Mat 64 32) (n : Fin N) (k : Fin 32)
    (g₀ : Fin 64) (hg : nb (ix2 n (0 : Fin 1)) = BitVec.ofNat 32 g₀.val) :
    urowAt nb u n k = u (ix2 g₀ k) := by
  unfold urowAt
  rw [Finset.sum_eq_single g₀]
  · rw [if_pos hg, one_mul]
  · intro g _ hne
    have : ¬ nb (ix2 n (0 : Fin 1)) = BitVec.ofNat 32 g.val := by
      intro h
      apply hne
      have e : BitVec.ofNat 32 g.val = BitVec.ofNat 32 g₀.val := h.symm.trans hg
      have e' := congrArg BitVec.toNat e
      simp only [BitVec.toNat_ofNat] at e'
      apply Fin.ext
      have h1 : g.val < 64 := g.isLt
      have h2 : g₀.val < 64 := g₀.isLt
      omega
    rw [if_neg this, zero_mul]
  · intro h; exact absurd (Finset.mem_univ _) h

end Cert.NodeModel

end
-- ==== Proof.KHost.lean ====
/-
  The arrays the kernel program computes on the host, as terms of its arguments, and what each pallas_call is entered
  with: @main gathers the source rows (of x cut to bf16, the identity on extended reals) and slices the first-layer
  weights before the message pallas_call; after it, it scatter-adds the messages and a column of ones over the
  destination ids and slices the update perceptron's first-layer weight. Read off the fold of @main's stretches.
-/
import proofs.«410165_j28484223107667_3_alg».proof.Proof.KRun
import proofs.«410165_j28484223107667_3_alg».proof.Proof.Spec
import Idealize.ShloMosaic.Lib.StableHlo.Run
import Idealize.ShloMosaic.PureOps.Ideal.Laws
import Idealize.ShloMosaic.Lib.ValueIdx

set_option maxRecDepth 16384

noncomputable section

namespace Cert.KernelIdeal.KHost

open Cert.KernelIdeal Cert.KernelIdeal.Gen Idealize.ShloMosaic Idealize.ShloMosaic.TcCoe Idealize.SL.Sem
open Idealize.ShloMosaic.StableHlo Cert.NodeModel

variable (m : (ℓ : Loc nD τ sig) → Buf (Elt Ideal) ℓ) (ρ : Dev nD → PrngReg)

/-! ## The arrays the program computes on the host, as terms of the arguments -/

/-- The source-node ids: row 0 of the edge index. -/
abbrev rowK (c : Dev nD) : IVec S1000000 32 :=
  shapeCast S1000000 (extractStridedSlice S1x1000000 ![0, 0] (m ((c : Thread nD τ).loc main_arg1)) slices_S2x1000000_S1x1000000_0_0) shapeCasts_S1x1000000_S1000000
/-- The destination-node ids: row 1 of the edge index. -/
abbrev colK (c : Dev nD) : IVec S1000000 32 :=
  shapeCast S1000000 (extractStridedSlice S1x1000000 ![1, 0] (m ((c : Thread nD τ).loc main_arg1)) slices_S2x1000000_S1x1000000_1_0) shapeCasts_S1x1000000_S1000000
/-- The gathered source rows. -/
abbrev xrowK (c : Dev nD) : FVec Ideal S1000000x64 .bf16 :=
  Host.gather gather_S100000x64_S1000000x1_S1000000x64_1_0_n_n_0_1_164
    (truncf .bf16 (m ((c : Thread nD τ).loc main_arg0)) bitsLt_bf16_f32 : FVec Ideal S100000x64 .bf16)
    (broadcastInDim S1000000x1 ![0] bcast_S1000000_S1000000x1_0 (rowK m c))
/-- The two slices of the message perceptron's first-layer weight. -/
abbrev m1aK (c : Dev nD) : FVec Ideal S64x128 .f32 :=
  extractStridedSlice S64x128 ![0, 0] (m ((c : Thread nD τ).loc main_arg6)) slices_S96x128_S64x128_0_0
abbrev m1bK (c : Dev nD) : FVec Ideal S32x128 .f32 :=
  extractStridedSlice S32x128 ![64, 0] (m ((c : Thread nD τ).loc main_arg6)) slices_S96x128_S32x128_64_0
/-- The three slices of the update perceptron's first-layer weight. -/
abbrev u1aK (c : Dev nD) : FVec Ideal S64x128 .f32 :=
  extractStridedSlice S64x128 ![0, 0] (m ((c : Thread nD τ).loc main_arg10)) slices_S160x128_S64x128_0_0
abbrev u1bK (c : Dev nD) : FVec Ideal S64x128 .f32 :=
  extractStridedSlice S64x128 ![64, 0] (m ((c : Thread nD τ).loc main_arg10)) slices_S160x128_S64x128_64_0
abbrev u1cK (c : Dev nD) : FVec Ideal S32x128 .f32 :=
  extractStridedSlice S32x128 ![128, 0] (m ((c : Thread nD τ).loc main_arg10)) slices_S160x128_S32x128_128_0
/-- The graph ids as a column. -/
abbrev nbK (c : Dev nD) : IVec S100000x1 32 :=
  shapeCast S100000x1 (m ((c : Thread nD τ).loc main_arg4)) shapeCasts_S100000_S100000x1

/-! ## Region 0's entry contents -/

theorem V3_v6 (c : Dev nD) : V3 m ρ c main_v6 = xrowK m c := by
  show StableHlo.after hostOps0_2 (StableHlo.after hostOps0_1 (StableHlo.after hostOps0 (W0 m ρ c))) (Proc.devRef .tc main_v6) = _
  after_results
  rfl
theorem V3_v7 (c : Dev nD) : V3 m ρ c main_v7 = m1aK m c := by
  show StableHlo.after hostOps0_2 (StableHlo.after hostOps0_1 (StableHlo.after hostOps0 (W0 m ρ c))) (Proc.devRef .tc main_v7) = _
  after_results
theorem V3_v8 (c : Dev nD) : V3 m ρ c main_v8 = m1bK m c := by
  show StableHlo.after hostOps0_2 (StableHlo.after hostOps0_1 (StableHlo.after hostOps0 (W0 m ρ c))) (Proc.devRef .tc main_v8) = _
  after_results
theorem V3_arg2 (c : Dev nD) : V3 m ρ c main_arg2 = m ((c : Thread nD τ).loc main_arg2) := by
  show StableHlo.after hostOps0_2 (StableHlo.after hostOps0_1 (StableHlo.after hostOps0 (W0 m ρ c))) (Proc.devRef .tc main_arg2) = _
  after_results
theorem V3_arg5 (c : Dev nD) : V3 m ρ c main_arg5 = m ((c : Thread nD τ).loc main_arg5) := by
  show StableHlo.after hostOps0_2 (StableHlo.after hostOps0_1 (StableHlo.after hostOps0 (W0 m ρ c))) (Proc.devRef .tc main_arg5) = _
  after_results
theorem V3_arg7 (c : Dev nD) : V3 m ρ c main_arg7 = m ((c : Thread nD τ).loc main_arg7) := by
  show StableHlo.after hostOps0_2 (StableHlo.after hostOps0_1 (StableHlo.after hostOps0 (W0 m ρ c))) (Proc.devRef .tc main_arg7) = _
  after_results
theorem V3_arg8 (c : Dev nD) : V3 m ρ c main_arg8 = m ((c : Thread nD τ).loc main_arg8) := by
  show StableHlo.after hostOps0_2 (StableHlo.after hostOps0_1 (StableHlo.after hostOps0 (W0 m ρ c))) (Proc.devRef .tc main_arg8) = _
  after_results
theorem V3_arg9 (c : Dev nD) : V3 m ρ c main_arg9 = m ((c : Thread nD τ).loc main_arg9) := by
  show StableHlo.after hostOps0_2 (StableHlo.after hostOps0_1 (StableHlo.after hostOps0 (W0 m ρ c))) (Proc.devRef .tc main_arg9) = _
  after_results

/-- The messages region 0 leaves. -/
abbrev msgK (c : Dev nD) : FVec Ideal S1000000x64 .f32 :=
  msgArr (xrowK m c) (m ((c : Thread nD τ).loc main_arg2)) (m ((c : Thread nD τ).loc main_arg5)) (m1aK m c) (m1bK m c)
    (m ((c : Thread nD τ).loc main_arg7)) (m ((c : Thread nD τ).loc main_arg8)) (m ((c : Thread nD τ).loc main_arg9))

/-! ## Region 1's entry contents -/

/-- A buffer that is no array of region 0 and that no host operation before it writes holds its launch contents when
    region 1's stretch begins. -/
theorem W4_of_arg (c : Dev nD) (b : Ref sig .tc) (hb : ∀ w, Pipeline.arrRef spec0 w ≠ b)
    (v : Buf (Elt Ideal) ((c : Thread nD τ).loc b))
    (h3 : StableHlo.after hostOps0_2 (StableHlo.after hostOps0_1 (StableHlo.after hostOps0 (W0 m ρ c))) (Proc.devRef .tc b) = v) :
    W4 m ρ c (Proc.devRef .tc b) = v :=
  (W4_of_ne m ρ c b hb).trans h3

/-- The scattered sums of the messages over the destination ids. -/
abbrev sumsK (c : Dev nD) : FVec Ideal S100000x64 .f32 :=
  Host.scatterAdd scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 (colK m c)) (msgK m c)
/-- The counts of incoming edges: the scattered ones. -/
abbrev cntK (c : Dev nD) : FVec Ideal S100000x1 .f32 :=
  Host.scatterAdd scatter_S100000x1_S1000000x1_S1000000x1_1_0_0_1
    (broadcastInDim S100000x1 ![] bcast_S_S100000x1 (constant (F := Ideal) S_ .f32 0x00000000#32))
    (broadcastInDim S1000000x1 ![0] bcast_S1000000_S1000000x1_0 (colK m c))
    (broadcastInDim S1000000x1 ![] bcast_S_S1000000x1 (constant (F := Ideal) S_ .f32 0x3F800000#32))

theorem W4_v3 (c : Dev nD) : W4 m ρ c (Proc.devRef .tc main_v3) = colK m c :=
  W4_of_arg m ρ c main_v3 (by decide) _ (by after_results; rfl)

theorem V5_v12 (c : Dev nD) (hmsg : W4 m ρ c (Proc.devRef .tc main_v9) = msgK m c) : V5 m ρ c main_v12 = sumsK m c := by
  show StableHlo.after hostOps1 (W4 m ρ c) (Proc.devRef .tc main_v12) = _
  after_results
  rw [W4_v3, hmsg]
theorem V5_v16 (c : Dev nD) : V5 m ρ c main_v16 = cntK m c := by
  show StableHlo.after hostOps1 (W4 m ρ c) (Proc.devRef .tc main_v16) = _
  after_results
  rw [W4_v3]
theorem V5_v4 (c : Dev nD) : V5 m ρ c main_v4 = nbK m c := by
  show StableHlo.after hostOps1 (W4 m ρ c) (Proc.devRef .tc main_v4) = _
  after_results
  exact W4_of_arg m ρ c main_v4 (by decide) _ (by after_results; rfl)

theorem V5_arg0 (c : Dev nD) : V5 m ρ c main_arg0 = m ((c : Thread nD τ).loc main_arg0) := by
  show StableHlo.after hostOps1 (W4 m ρ c) (Proc.devRef .tc main_arg0) = _
  after_results
  exact W4_of_arg m ρ c main_arg0 (by decide) _ (by after_results)
theorem V5_arg3 (c : Dev nD) : V5 m ρ c main_arg3 = m ((c : Thread nD τ).loc main_arg3) := by
  show StableHlo.after hostOps1 (W4 m ρ c) (Proc.devRef .tc main_arg3) = _
  after_results
  exact W4_of_arg m ρ c main_arg3 (by decide) _ (by after_results)
theorem V5_arg11 (c : Dev nD) : V5 m ρ c main_arg11 = m ((c : Thread nD τ).loc main_arg11) := by
  show StableHlo.after hostOps1 (W4 m ρ c) (Proc.devRef .tc main_arg11) = _
  after_results
  exact W4_of_arg m ρ c main_arg11 (by decide) _ (by after_results)
theorem V5_arg12 (c : Dev nD) : V5 m ρ c main_arg12 = m ((c : Thread nD τ).loc main_arg12) := by
  show StableHlo.after hostOps1 (W4 m ρ c) (Proc.devRef .tc main_arg12) = _
  after_results
  exact W4_of_arg m ρ c main_arg12 (by decide) _ (by after_results)
theorem V5_arg13 (c : Dev nD) : V5 m ρ c main_arg13 = m ((c : Thread nD τ).loc main_arg13) := by
  show StableHlo.after hostOps1 (W4 m ρ c) (Proc.devRef .tc main_arg13) = _
  after_results
  exact W4_of_arg m ρ c main_arg13 (by decide) _ (by after_results)

theorem V5_v17 (c : Dev nD) : V5 m ρ c main_v17 = u1aK m c := by
  show StableHlo.after hostOps1 (W4 m ρ c) (Proc.devRef .tc main_v17) = _
  after_results
  rw [W4_of_arg m ρ c main_arg10 (by decide) (m ((c : Thread nD τ).loc main_arg10)) (by after_results)]
theorem V5_v18 (c : Dev nD) : V5 m ρ c main_v18 = u1bK m c := by
  show StableHlo.after hostOps1 (W4 m ρ c) (Proc.devRef .tc main_v18) = _
  after_results
  rw [W4_of_arg m ρ c main_arg10 (by decide) (m ((c : Thread nD τ).loc main_arg10)) (by after_results)]
theorem V5_v19 (c : Dev nD) : V5 m ρ c main_v19 = u1cK m c := by
  show StableHlo.after hostOps1 (W4 m ρ c) (Proc.devRef .tc main_v19) = _
  after_results
  rw [W4_of_arg m ρ c main_arg10 (by decide) (m ((c : Thread nD τ).loc main_arg10)) (by after_results)]

end Cert.KernelIdeal.KHost

end
-- ==== Proof.LibPlainDot.lean ====
/-
  A plain matrix product read at an element, at the extended reals: for dimension numbers that contract the left
  operand's axis 1 with the right operand's axis 0 and have no batch axis ([M, K] by [K, N]), the contraction at (p, q)
  is the sum over k of lhs[p, k] * rhs[k, q] — for a kernel's matmul into a zero accumulator and for the host's
  dot_general alike. General lemmas over any sizes; they import no program.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

/-- The plain dimension numbers over any well-formedness proof. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row is the output's row … -/
theorem lhs_0 (i : (⟨2, ![M, N]⟩ : Shape).Idx) (q : (plainDims M K N wf).contr.Idx) :
    ((plainDims M K N wf).lhsIdx i q 0).val = (i 0).val := by
  unfold DotDims.lhsIdx
  rw [dif_neg (show ¬(0 : Fin (⟨2, ![M, K]⟩ : Shape).rank) ∈ (plainDims M K N wf).lhsBatch from List.not_mem_nil),
    dif_pos (show (0 : Fin (⟨2, ![M, K]⟩ : Shape).rank) ∈ (plainDims M K N wf).lhsNonContracting from List.mem_singleton.mpr rfl)]
  rfl
/-- … its column the contracted coordinate … -/
theorem lhs_1 (i : (⟨2, ![M, N]⟩ : Shape).Idx) (q : (plainDims M K N wf).contr.Idx) :
    ((plainDims M K N wf).lhsIdx i q 1).val = (q ⟨0, (Nat.one_pos : 0 < (plainDims M K N wf).contr.rank)⟩).val :=
  (plainDims M K N wf).lhsIdx_val_of_single rfl i q
/-- … the right operand's row the contracted coordinate … -/
theorem rhs_0 (i : (⟨2, ![M, N]⟩ : Shape).Idx) (q : (plainDims M K N wf).contr.Idx) :
    ((plainDims M K N wf).rhsIdx i q 0).val = (q ⟨0, (Nat.one_pos : 0 < (plainDims M K N wf).contr.rank)⟩).val :=
  (plainDims M K N wf).rhsIdx_val_of_single rfl i q
/-- … and its column the output's column. -/
theorem rhs_1 (i : (⟨2, ![M, N]⟩ : Shape).Idx) (q : (plainDims M K N wf).contr.Idx) :
    ((plainDims M K N wf).rhsIdx i q 1).val = (i 1).val := by
  unfold DotDims.rhsIdx
  rw [dif_neg (show ¬(1 : Fin (⟨2, ![K, N]⟩ : Shape).rank) ∈ (plainDims M K N wf).rhsBatch from List.not_mem_nil),
    dif_pos (show (1 : Fin (⟨2, ![K, N]⟩ : Shape).rank) ∈ (plainDims M K N wf).rhsNonContracting from List.mem_singleton.mpr rfl)]
  rfl

/-- The contraction sum of the plain dimension numbers at (p, q), re-indexed by the contracted coordinate. -/
theorem plain_sum (l : (⟨2, ![M, K]⟩ : Shape).Idx → EReal) (r : (⟨2, ![K, N]⟩ : Shape).Idx → EReal) (p : Fin M) (q : Fin N) :
    ∑ k : (plainDims M K N wf).contr.Idx, l ((plainDims M K N wf).lhsIdx (ix2 p q) k) * r ((plainDims M K N wf).rhsIdx (ix2 p q) k)
      = ∑ k : Fin K, l (ix2 p k) * r (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_0 wf _ _
      | ⟨1, _⟩ => exact (lhs_1 wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_0 wf _ _).trans hk
      | ⟨1, _⟩ => exact rhs_1 wf _ _)
  rw [el, er]

/-- The same for any record of dimension numbers whose six lists are the plain ones. -/
theorem contr_sum_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf'⟩ := d
  dsimp only at hlc hrc hln hrn hlb hrb
  subst hlc hrc hln hrn hlb hrb
  exact plain_sum wf' l r p q

/-- A kernel's matmul into the zero accumulator, at (p, q): the sum over k of lhs[p, k] * rhs[k, q]. -/
theorem matmul_zero_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  rw [Ideal.matmul_constant_zero_apply]
  exact contr_sum_apply d hlc hrc hln hrn hlb hrb l r p q

/-- The host's dot_general, at (p, q): the same sum. -/
theorem dotGeneral_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  rw [Ideal.dotGeneral_apply]
  exact contr_sum_apply d hlc hrc hln hrn hlb hrb l r p q

end Idealize.ShloMosaic.PlainDot

end
-- ==== Proof.KRegion0.lean ====
/-
  What the first pallas_call leaves in its result array: the messages of all edges. Every grid point t of the 125
  handles the 8000 edges 8000 t .. 8000 t + 7999 and writes their messages back as block t; the blocks tile the array.

  The body's stored value at (p, q) of a block is the message perceptron of row p of the three edge-blocked operands and
  of the five weight operands: two products into zero accumulators added, the first bias added along the rows, the
  rectifier, a third product, the second bias, and the edge's weight as a factor. A change of float format is the
  identity over the extended reals, so nothing is left of the three roundings. A block's row p at point t is the array's
  row 8000 t + p, a weight operand's block is its whole array, and a message depends only on its own edge's rows, so what
  point t writes back is block t of the messages of the arrays. Row r lies in the block of point r / 8000.
-/
import proofs.«410165_j28484223107667_3_alg».proof.Proof.Gen.KernelIdeal.Frame
import proofs.«410165_j28484223107667_3_alg».proof.Proof.Spec
import proofs.«410165_j28484223107667_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.MsgRegion

open Cert.KernelIdeal Cert.KernelIdeal.Gen Idealize.ShloMosaic Idealize.ShloMosaic.TcCoe Idealize.SL.Sem
open Idealize.ShloMosaic.ValueIdx Idealize.ShloMosaic.Pipeline

/-! ## The stored value at an index -/

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's stored value at (p, q), over any eight loaded blocks: the message of row p, component q. Each product
    into a zero accumulator is the sum over the contracted index; the bias vectors, cast to one row and broadcast over
    the rows, read at the column; the weight column, broadcast over the columns, reads at the row; the zero word is 0. -/
theorem pay_apply (x0 : Vec Ideal S8000x64 .bf16) (x1 : Vec Ideal S8000x32 .f32) (x2 : Vec Ideal S8000x1 .f32)
    (x3 : Vec Ideal S64x128 .f32) (x4 : Vec Ideal S32x128 .f32) (x5 : Vec Ideal S128 .f32) (x6 : Vec Ideal S128x64 .f32)
    (x7 : Vec Ideal S64 .f32) (p : Fin 8000) (q : Fin 64) :
    k0_pay1 (F := Ideal) x0 x1 x3 x4 x5 x6 x7 x2 (ix2 p q)
      = Cert.NodeModel.msgAt x0 x1 x2 x3 x4 x5 x6 x7 p q := by
  unfold k0_pay1
  simp only [shapeCast_self, matmul]
  simp only [mulf_apply, addf_apply, maximumf_apply, truncf_apply, broadcast_apply,
    PlainDot.matmul_zero_apply dot_S8000x128_S128x64_S8000x64_1_0_0_1_n_n rfl rfl rfl rfl rfl rfl,
    PlainDot.matmul_zero_apply dot_S8000x64_S64x128_S8000x128_1_0_0_1_n_n rfl rfl rfl rfl rfl rfl,
    PlainDot.matmul_zero_apply dot_S8000x32_S32x128_S8000x128_1_0_0_1_n_n rfl rfl rfl rfl rfl rfl,
    broadcastTo_a1_ab_apply, broadcastTo_1b_ab_apply, shapeCast_a_1a_apply]
  rw [Ideal.ofBits_def, Ideal.ofBits_zero_f32]
  rfl

/-- The message of an edge depends only on that edge's rows: a block whose row p carries the array's row e gives,
    at p, the array's message at e. -/
theorem msgAt_of_rows {E B : Nat} (xr : Cert.NodeModel.Mat E 64) (ea : Cert.NodeModel.Mat E 32) (wts : Cert.NodeModel.Mat E 1)
    (xr' : Cert.NodeModel.Mat B 64) (ea' : Cert.NodeModel.Mat B 32) (wts' : Cert.NodeModel.Mat B 1)
    (w1a : Cert.NodeModel.Mat 64 128) (w1b : Cert.NodeModel.Mat 32 128) (b1 : Cert.NodeModel.Vc 128)
    (w2 : Cert.NodeModel.Mat 128 64) (b2 : Cert.NodeModel.Vc 64) (e : Fin E) (p : Fin B) (j : Fin 64)
    (hx : ∀ k, xr' (ix2 p k) = xr (ix2 e k)) (ha : ∀ k, ea' (ix2 p k) = ea (ix2 e k))
    (hw : ∀ k, wts' (ix2 p k) = wts (ix2 e k)) :
    Cert.NodeModel.msgAt xr' ea' wts' w1a w1b b1 w2 b2 p j = Cert.NodeModel.msgAt xr ea wts w1a w1b b1 w2 b2 e j := by
  unfold Cert.NodeModel.msgAt Cert.NodeModel.msgHid
  simp only [hx, ha, hw]

/-! ## Where each block lies in its array -/

theorem hz2 : (![0, 0] : Fin 2 → Nat) = fun _ => 0 := funext fun a => by fin_cases a <;> rfl
theorem hz1 : (![0] : Fin 1 → Nat) = fun _ => 0 := funext fun a => by fin_cases a; rfl

/-- The index maps over the 125 points: the three edge-blocked operands and the result are at block row t, column
    block 0; the five weight operands are at block 0 on every axis. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

/-- An index of the result array is in point t's block iff each coordinate is in the block's range on its axis. -/
theorem mem_blk (t : Fin cfg0.N) (i : S1000000x64.Idx) :
    i ∈ ((cfg0.win 8).blk t).view.set
      ↔ ∀ a : Fin 2, win0_8.index t a * S8000x64.size a ≤ (i a).val
          ∧ (i a).val < win0_8.index t a * S8000x64.size a + S8000x64.size a := by
  show i ∈ ((View.whole main_v9).slice (win0_8.rect t)).set ↔ _
  rw [View.set_slice_whole, Rect.mem_set_unit]
  exact Iff.rfl

/-- Every edge's row is in some point's block: row r is in the block of point r / 8000. -/
theorem cover (i : S1000000x64.Idx) :
    ∃ t : Fin cfg0.N, (cfg0.win 8).flush t = true ∧ i ∈ ((cfg0.win 8).blk t).view.set := by
  have hN : cfg0.N = 125 := N_0
  have hi0 : (i 0).val < 1000000 := (i 0).isLt
  have hi1 : (i 1).val < 64 := (i 1).isLt
  obtain ⟨t, htv⟩ : ∃ t : Fin cfg0.N, t.val = (i 0).val / 8000 := ⟨⟨(i 0).val / 8000, by omega⟩, rfl⟩
  obtain ⟨-, -, -, -, -, -, -, -, -, -, -, -, -, -, h80, h81⟩ := idx_facts t
  refine ⟨t, flush0_8 t, ?_⟩
  rw [mem_blk]
  intro a
  match a with
  | ⟨0, _⟩ =>
    show win0_8.index t (0 : Fin 2) * 8000 ≤ (i 0).val ∧ (i 0).val < win0_8.index t (0 : Fin 2) * 8000 + 8000
    rw [h80, htv]; omega
  | ⟨1, _⟩ =>
    show win0_8.index t (1 : Fin 2) * 64 ≤ (i 1).val ∧ (i 1).val < win0_8.index t (1 : Fin 2) * 64 + 64
    rw [h81]; omega

variable (V : (c : Dev nD) → (b : Ref sig .tc) → Buf (Elt Ideal) ((c : Thread nD τ).loc b))

/-- Row p of point t's block of the gathered source rows is row 8000 t + p of the array. -/
theorem rows0 (c : Dev nD) (t : Fin cfg0.N) (p : Fin 8000) (k : Fin 64) (e : Fin 1000000) (he : e.val = t.val * 8000 + p.val) :
    (iblk0 V c 0 t : Vec Ideal S8000x64 .bf16) (ix2 p k) = (V c main_v6 : Cert.NodeModel.Mat 1000000 64) (ix2 e k) := by
  obtain ⟨h0, h1, -⟩ := idx_facts t
  unfold iblk0
  rw [View.read_apply]
  refine congrArg (V c main_v6) ?_
  funext a
  apply Fin.ext
  match a with
  | ⟨0, _⟩ => show win0_0.index t (0 : Fin 2) * 8000 + 1 * p.val = e.val; rw [h0, he]; omega
  | ⟨1, _⟩ => show win0_0.index t (1 : Fin 2) * 64 + 1 * k.val = k.val; rw [h1]; omega

/-- Row p of point t's block of the edge features is row 8000 t + p of the array. -/
theorem rows1 (c : Dev nD) (t : Fin cfg0.N) (p : Fin 8000) (k : Fin 32) (e : Fin 1000000) (he : e.val = t.val * 8000 + p.val) :
    (iblk0 V c 1 t : Vec Ideal S8000x32 .f32) (ix2 p k) = (V c main_arg2 : Cert.NodeModel.Mat 1000000 32) (ix2 e k) := by
  obtain ⟨-, -, h0, h1, -⟩ := idx_facts t
  unfold iblk0
  rw [View.read_apply]
  refine congrArg (V c main_arg2) ?_
  funext a
  apply Fin.ext
  match a with
  | ⟨0, _⟩ => show win0_1.index t (0 : Fin 2) * 8000 + 1 * p.val = e.val; rw [h0, he]; omega
  | ⟨1, _⟩ => show win0_1.index t (1 : Fin 2) * 32 + 1 * k.val = k.val; rw [h1]; omega

/-- Row p of point t's block of the edge weights is row 8000 t + p of the array. -/
theorem rows2 (c : Dev nD) (t : Fin cfg0.N) (p : Fin 8000) (k : Fin 1) (e : Fin 1000000) (he : e.val = t.val * 8000 + p.val) :
    (iblk0 V c 2 t : Vec Ideal S8000x1 .f32) (ix2 p k) = (V c main_arg5 : Cert.NodeModel.Mat 1000000 1) (ix2 e k) := by
  obtain ⟨-, -, -, -, h0, h1, -⟩ := idx_facts t
  unfold iblk0
  rw [View.read_apply]
  refine congrArg (V c main_arg5) ?_
  funext a
  apply Fin.ext
  match a with
  | ⟨0, _⟩ => show win0_2.index t (0 : Fin 2) * 8000 + 1 * p.val = e.val; rw [h0, he]; omega
  | ⟨1, _⟩ => show win0_2.index t (1 : Fin 2) * 1 + 1 * k.val = k.val; rw [h1]; omega

/-- The first layer's weights for the source rows: the block is the whole array, at every point. -/
theorem whole3 (c : Dev nD) (t : Fin cfg0.N) : (iblk0 V c 3 t : Vec Ideal S64x128 .f32) = (V c main_v7 : Cert.NodeModel.Mat 64 128) := by
  obtain ⟨-, -, -, -, -, -, h0, h1, -⟩ := idx_facts t
  funext y
  unfold iblk0
  rw [View.read_apply]
  refine congrArg (V c main_v7) ?_
  funext a
  apply Fin.ext
  match a with
  | ⟨0, _⟩ => show win0_3.index t (0 : Fin 2) * 64 + 1 * (y 0).val = (y 0).val; rw [h0]; omega
  | ⟨1, _⟩ => show win0_3.index t (1 : Fin 2) * 128 + 1 * (y 1).val = (y 1).val; rw [h1]; omega

/-- The first layer's weights for the edge features: the whole array. -/
theorem whole4 (c : Dev nD) (t : Fin cfg0.N) : (iblk0 V c 4 t : Vec Ideal S32x128 .f32) = (V c main_v8 : Cert.NodeModel.Mat 32 128) := by
  obtain ⟨-, -, -, -, -, -, -, -, h0, h1, -⟩ := idx_facts t
  funext y
  unfold iblk0
  rw [View.read_apply]
  refine congrArg (V c main_v8) ?_
  funext a
  apply Fin.ext
  match a with
  | ⟨0, _⟩ => show win0_4.index t (0 : Fin 2) * 32 + 1 * (y 0).val = (y 0).val; rw [h0]; omega
  | ⟨1, _⟩ => show win0_4.index t (1 : Fin 2) * 128 + 1 * (y 1).val = (y 1).val; rw [h1]; omega

/-- The first bias: the whole vector. -/
theorem whole5 (c : Dev nD) (t : Fin cfg0.N) : (iblk0 V c 5 t : Vec Ideal S128 .f32) = (V c main_arg7 : Cert.NodeModel.Vc 128) := by
  obtain ⟨-, -, -, -, -, -, -, -, -, -, h0, -⟩ := idx_facts t
  funext y
  unfold iblk0
  rw [View.read_apply]
  refine congrArg (V c main_arg7) ?_
  funext a
  apply Fin.ext
  match a with
  | ⟨0, _⟩ => show win0_5.index t (0 : Fin 1) * 128 + 1 * (y 0).val = (y 0).val; rw [h0]; omega

/-- The second layer's weights: the whole array. -/
theorem whole6 (c : Dev nD) (t : Fin cfg0.N) : (iblk0 V c 6 t : Vec Ideal S128x64 .f32) = (V c main_arg8 : Cert.NodeModel.Mat 128 64) := by
  obtain ⟨-, -, -, -, -, -, -, -, -, -, -, h0, h1, -⟩ := idx_facts t
  funext y
  unfold iblk0
  rw [View.read_apply]
  refine congrArg (V c main_arg8) ?_
  funext a
  apply Fin.ext
  match a with
  | ⟨0, _⟩ => show win0_6.index t (0 : Fin 2) * 128 + 1 * (y 0).val = (y 0).val; rw [h0]; omega
  | ⟨1, _⟩ => show win0_6.index t (1 : Fin 2) * 64 + 1 * (y 1).val = (y 1).val; rw [h1]; omega

/-- The second bias: the whole vector. -/
theorem whole7 (c : Dev nD) (t : Fin cfg0.N) : (iblk0 V c 7 t : Vec Ideal S64 .f32) = (V c main_arg9 : Cert.NodeModel.Vc 64) := by
  obtain ⟨-, -, -, -, -, -, -, -, -, -, -, -, -, h0, -⟩ := idx_facts t
  funext y
  unfold iblk0
  rw [View.read_apply]
  refine congrArg (V c main_arg9) ?_
  funext a
  apply Fin.ext
  match a with
  | ⟨0, _⟩ => show win0_7.index t (0 : Fin 1) * 64 + 1 * (y 0).val = (y 0).val; rw [h0]; omega

/-! ## From the blocks to the array -/

/-- What point t writes back is block t of the messages of the region's input arrays: at (p, q) of the block the
    stored value is the message of the blocks' row p, which is the arrays' row 8000 t + p, where the block sits. -/
theorem flushed_eq (c : Dev nD) (t : Fin cfg0.N) :
    (dat0 (F := Ideal) V c).flushed 8 t
      = ((cfg0.win 8).blk t).view.read (Elt Ideal)
          (Cert.NodeModel.msgArr (V c main_v6) (V c main_arg2) (V c main_arg5) (V c main_v7) (V c main_v8) (V c main_arg7)
            (V c main_arg8) (V c main_arg9)) := by
  show (cfg0.win 8).cut (grid0.coords t) ((dat0 V c).after 8 t) = _
  rw [after0_8]
  unfold out0_8
  rw [View.canon_unit_zero hz2]
  simp only [View.ld_unit_zero (S := S8000x64) hz2, View.ld_unit_zero (S := S8000x32) hz2, View.ld_unit_zero (S := S8000x1) hz2,
    View.ld_unit_zero (S := S64x128) hz2, View.ld_unit_zero (S := S32x128) hz2, View.ld_unit_zero (S := S128) hz1,
    View.ld_unit_zero (S := S128x64) hz2, View.ld_unit_zero (S := S64) hz1]
  have hN : cfg0.N = 125 := N_0
  have ht : t.val < 125 := by have := t.isLt; omega
  obtain ⟨-, -, -, -, -, -, -, -, -, -, -, -, -, -, h80, h81⟩ := idx_facts t
  funext j
  obtain ⟨p, q, rfl⟩ : ∃ (p : Fin 8000) (q : Fin 64), j = ix2 p q := ⟨j 0, j 1, eq_ix2 j⟩
  obtain ⟨e, he⟩ : ∃ e : Fin 1000000, e.val = t.val * 8000 + p.val :=
    ⟨⟨t.val * 8000 + p.val, by have := p.isLt; omega⟩, rfl⟩
  have hemb : ((cfg0.win 8).blk t).view.emb (ix2 p q) = ix2 e q := by
    funext a
    apply Fin.ext
    match a with
    | ⟨0, _⟩ => show win0_8.index t (0 : Fin 2) * 8000 + 1 * p.val = e.val; rw [h80, he]; omega
    | ⟨1, _⟩ => show win0_8.index t (1 : Fin 2) * 64 + 1 * q.val = q.val; rw [h81]; omega
  show k0_pay1 (F := Ideal) (iblk0 V c 0 t) (iblk0 V c 1 t) (iblk0 V c 3 t) (iblk0 V c 4 t) (iblk0 V c 5 t) (iblk0 V c 6 t)
        (iblk0 V c 7 t) (iblk0 V c 2 t) (ix2 p q) = _
  refine (pay_apply (iblk0 V c 0 t) (iblk0 V c 1 t) (iblk0 V c 2 t) (iblk0 V c 3 t) (iblk0 V c 4 t) (iblk0 V c 5 t)
    (iblk0 V c 6 t) (iblk0 V c 7 t) p q).trans ?_
  rw [View.read_apply, hemb, Cert.NodeModel.msgArr_ix2, whole3 V c t, whole4 V c t, whole5 V c t, whole6 V c t, whole7 V c t]
  exact msgAt_of_rows (V c main_v6) (V c main_arg2) (V c main_arg5) (iblk0 V c 0 t) (iblk0 V c 1 t) (iblk0 V c 2 t)
    (V c main_v7) (V c main_v8) (V c main_arg7) (V c main_arg8) (V c main_arg9) e p q
    (fun k => rows0 V c t p k e he) (fun k => rows1 V c t p k e he) (fun k => rows2 V c t p k e he)

/-- After the 125 points the result array holds the message perceptron of the region's input arrays. -/
theorem final0 (c : Dev nD) :
    (dat0 (F := Ideal) V c).arrAt 8 cfg0.N
      = Cert.NodeModel.msgArr (V c main_v6) (V c main_arg2) (V c main_arg5) (V c main_v7) (V c main_v8) (V c main_arg7)
          (V c main_arg8) (V c main_arg9) := by
  exact (dat0 V c).arrAt_eq_of_cover 8 _ (fun t _ => flushed_eq V c t) cover

end Cert.KernelIdeal.MsgRegion

end
-- ==== Proof.KRegion1.lean ====
/-
  What the second pallas_call leaves in its result array: the updates of all nodes. Every grid point t of the 20
  handles the 5000 nodes 5000 t .. 5000 t + 4999 and writes their updates back as block t; the blocks tile the array.
-/
import proofs.«410165_j28484223107667_3_alg».proof.Proof.Gen.KernelIdeal.Frame
import proofs.«410165_j28484223107667_3_alg».proof.Proof.Spec
import proofs.«410165_j28484223107667_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.UpdRegion

open Cert.KernelIdeal Cert.KernelIdeal.Gen Idealize.ShloMosaic Idealize.ShloMosaic.TcCoe Idealize.SL.Sem
open Idealize.ShloMosaic.ValueIdx Idealize.ShloMosaic.Pipeline

/-! ## The body's arithmetic at an index -/

/-- The word of the float one denotes the extended real one. -/
theorem ofBits_one_f32 : Ideal.ofBits .f32 0x3F800000#32 = 1 := by
  simp [Ideal.ofBits, Ideal.ieee, -EReal.coe_mul]; norm_num

/-- A column broadcast along the second axis reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The float of the widened bit of "the two words are equal" is one where they are and zero where they are not. -/
theorem onehot_word (a b : BitVec 32) :
    FloatOps.sitofp (F := Ideal) .f32 ((IntOp.cmpi .eq a b).setWidth 32) = if a = b then (1 : EReal) else 0 := by
  have hs : ∀ w : BitVec 32, FloatOps.sitofp (F := Ideal) .f32 w = ((w.toInt : ℝ) : EReal) := fun _ => rfl
  rw [hs]
  by_cases h : a = b
  · have e : IntOp.cmpi .eq a b = 1#1 := by simp [IntOp.cmpi, h]
    rw [e, if_pos h]
    have e' : ((1#1 : BitVec 1).setWidth 32).toInt = 1 := by decide
    rw [e']; simp
  · have e : IntOp.cmpi .eq a b = 0#1 := by
      simp only [IntOp.cmpi]; rw [show (a == b) = false from beq_eq_false_iff_ne.mpr h]; rfl
    rw [e, if_neg h]
    have e' : ((0#1 : BitVec 1).setWidth 32).toInt = 0 := by decide
    rw [e']; simp

/-- The first layer before the bias, at node p and hidden unit h: the three products of the node's own row, the mean of
    its incoming messages and the row of u its graph id picks with the three slices of the first weight matrix. -/
theorem firstLayer_apply (sums : Vec Ideal S5000x64 .f32) (cnt : Vec Ideal S5000x1 .f32) (ids : Vec Ideal S5000x1 .i32)
    (u : Vec Ideal S64x32 .f32) (x : Vec Ideal S5000x64 .f32) (w1a w1b : Vec Ideal S64x128 .f32) (w1c : Vec Ideal S32x128 .f32)
    (p : Fin 5000) (h : Fin 128) :
    k1_pay2 (F := Ideal) sums cnt ids u x w1a w1b w1c (ix2 p h)
      = ((∑ k : Fin 64, x (ix2 p k) * w1a (ix2 k h)) + (∑ k : Fin 64, Cert.NodeModel.recvAt sums cnt p k * w1b (ix2 k h)))
        + (∑ k : Fin 32, Cert.NodeModel.urowAt ids u p k * w1c (ix2 k h)) := by
  unfold k1_pay2
  dsimp only
  rw [addf_apply, addf_apply]
  refine congrArg₂ (· + ·) (congrArg₂ (· + ·) ?_ ?_) ?_
  · refine (PlainDot.matmul_zero_apply _ rfl rfl rfl rfl rfl rfl none _ _ p h).trans ?_
    refine Finset.sum_congr rfl fun k _ => ?_
    rw [truncf_apply, truncf_apply, shapeCast_self]
  · refine (PlainDot.matmul_zero_apply _ rfl rfl rfl rfl rfl rfl none _ _ p h).trans ?_
    refine Finset.sum_congr rfl fun k _ => ?_
    rw [truncf_apply, truncf_apply, divf_apply, shapeCast_self, shapeCast_self, broadcastTo_a1_ab_apply, maximumf_apply,
      shapeCast_self, broadcast_apply, Ideal.ofBits_def, ofBits_one_f32]
    rfl
  · refine (PlainDot.matmul_zero_apply _ rfl rfl rfl rfl rfl rfl none _ _ p h).trans ?_
    refine Finset.sum_congr rfl fun k _ => ?_
    refine congrArg₂ (· * ·) ?_ ?_
    · rw [truncf_apply]
      refine (PlainDot.matmul_zero_apply _ rfl rfl rfl rfl rfl rfl none _ _ p k).trans ?_
      unfold Cert.NodeModel.urowAt
      refine Finset.sum_congr rfl fun g _ => ?_
      rw [truncf_apply, truncf_apply, sitofp_apply, extui_apply]
      refine congrArg₂ (· * ·) ?_ rfl
      show FloatOps.sitofp .f32 ((IntOp.cmpi .eq
            (broadcastTo S5000x64 (shapeCast S5000x1 ids shapeCasts_S5000x1_S5000x1) broadcasts_S5000x1_S5000x64 (ix2 p g))
            (iota .tc S5000x64 32 [1] iota_S5000x64_d1_w32 (ix2 p g))).setWidth 32) = _
      rw [broadcastTo_a1_ab_apply, shapeCast_self, iota_single_apply, onehot_word]
    · rw [truncf_apply, shapeCast_self]

/-- The second layer over a first layer given before its bias, at node p and component q. -/
theorem secondLayer_apply (v36 : FVec Ideal S5000x128 .f32) (b1 : Vec Ideal S128 .f32) (w2 : Vec Ideal S128x64 .f32)
    (b2 : Vec Ideal S64 .f32) (p : Fin 5000) (q : Fin 64) :
    k1_pay1 (F := Ideal) v36 b1 w2 b2 (ix2 p q)
      = (∑ h : Fin 128, max (v36 (ix2 p h) + b1 (ix1 h)) 0 * w2 (ix2 h q)) + b2 (ix1 q) := by
  unfold k1_pay1
  rw [addf_apply]
  refine congrArg₂ (· + ·) ?_ ?_
  · refine (PlainDot.matmul_zero_apply _ rfl rfl rfl rfl rfl rfl none _ _ p q).trans ?_
    refine Finset.sum_congr rfl fun h _ => ?_
    rw [truncf_apply, truncf_apply, maximumf_apply, addf_apply, broadcast_apply, broadcastTo_1b_ab_apply,
      shapeCast_a_1a_apply, Ideal.ofBits_def, Ideal.ofBits_zero_f32]
  · rw [broadcastTo_1b_ab_apply, shapeCast_a_1a_apply]

/-- The body's arithmetic at node p of the block and component q is the update perceptron of the blocks there. -/
theorem body_apply (sums : Vec Ideal S5000x64 .f32) (cnt : Vec Ideal S5000x1 .f32) (ids : Vec Ideal S5000x1 .i32)
    (u : Vec Ideal S64x32 .f32) (x : Vec Ideal S5000x64 .f32) (w1a w1b : Vec Ideal S64x128 .f32) (w1c : Vec Ideal S32x128 .f32)
    (b1 : Vec Ideal S128 .f32) (w2 : Vec Ideal S128x64 .f32) (b2 : Vec Ideal S64 .f32) (p : Fin 5000) (q : Fin 64) :
    k1_pay1 (F := Ideal) (k1_pay2 sums cnt ids u x w1a w1b w1c) b1 w2 b2 (ix2 p q)
      = Cert.NodeModel.updAt x sums cnt ids u w1a w1b w1c b1 w2 b2 p q := by
  rw [secondLayer_apply]
  unfold Cert.NodeModel.updAt Cert.NodeModel.updHid
  refine congrArg₂ (· + ·) (Finset.sum_congr rfl fun h _ => ?_) rfl
  rw [firstLayer_apply]

/-! ## From the blocks to the array -/

/-- The update of a node reads its own row of the four node arrays only: two settings that agree on that row and on the
    weights give the same update. -/
theorem updAt_congr {N M : Nat} (x : Cert.NodeModel.Mat N 64) (x' : Cert.NodeModel.Mat M 64)
    (sums : Cert.NodeModel.Mat N 64) (sums' : Cert.NodeModel.Mat M 64)
    (cnt : Cert.NodeModel.Mat N 1) (cnt' : Cert.NodeModel.Mat M 1)
    (nb : (⟨2, ![N, 1]⟩ : Shape).Idx → BitVec 32) (nb' : (⟨2, ![M, 1]⟩ : Shape).Idx → BitVec 32)
    (u u' : Cert.NodeModel.Mat 64 32) (w1a w1a' w1b w1b' : Cert.NodeModel.Mat 64 128) (w1c w1c' : Cert.NodeModel.Mat 32 128)
    (b1 b1' : Cert.NodeModel.Vc 128) (w2 w2' : Cert.NodeModel.Mat 128 64) (b2 b2' : Cert.NodeModel.Vc 64)
    (n : Fin N) (n' : Fin M) (j : Fin 64)
    (hx : ∀ k : Fin 64, x (ix2 n k) = x' (ix2 n' k)) (hs : ∀ k : Fin 64, sums (ix2 n k) = sums' (ix2 n' k))
    (hc : cnt (ix2 n (0 : Fin 1)) = cnt' (ix2 n' (0 : Fin 1))) (hnb : nb (ix2 n (0 : Fin 1)) = nb' (ix2 n' (0 : Fin 1)))
    (hu : u = u') (ha : w1a = w1a') (hb : w1b = w1b') (hcw : w1c = w1c') (hb1 : b1 = b1') (hw2 : w2 = w2') (hb2 : b2 = b2') :
    Cert.NodeModel.updAt x sums cnt nb u w1a w1b w1c b1 w2 b2 n j
      = Cert.NodeModel.updAt x' sums' cnt' nb' u' w1a' w1b' w1c' b1' w2' b2' n' j := by
  subst hu ha hb hcw hb1 hw2 hb2
  unfold Cert.NodeModel.updAt Cert.NodeModel.updHid Cert.NodeModel.recvAt Cert.NodeModel.urowAt
  simp only [hx, hs, hc, hnb]

/-- The zero offsets of a whole-block access, rank 2 and rank 1. -/
theorem zeroOffsets2 : (![0, 0] : Fin 2 → Nat) = fun _ => 0 := funext fun a => by fin_cases a <;> rfl
theorem zeroOffsets1 : (![0] : Fin 1 → Nat) = fun _ => 0 := funext fun a => by fin_cases a <;> rfl

/-- The windows' index maps over the 20 points: the four node windows and the result window sit at block row t, the
    seven weight windows at block 0. -/
theorem block_indices : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ win1_8.index t (0 : Fin 1) = 0
    ∧ (win1_9.index t (0 : Fin 2) = 0 ∧ win1_9.index t (1 : Fin 2) = 0)
    ∧ win1_10.index t (0 : Fin 1) = 0
    ∧ (win1_11.index t (0 : Fin 2) = t.val ∧ win1_11.index t (1 : Fin 2) = 0) :=
  (by decide +kernel : ∀ t : Fin grid1.N, _)

/-- Row p of block t is row 5000 t + p of the array. -/
theorem row_lt (t : Fin cfg1.N) (p : Fin 5000) : t.val * 5000 + p.val < 100000 := by
  have ht : t.val < 20 := lt_of_lt_of_eq t.isLt (show cfg1.N = 20 from N_1)
  have hp := p.isLt
  omega

variable (V : (c : Dev nD) → (b : Ref sig .tc) → Buf (Elt Ideal) ((c : Thread nD τ).loc b))

/-! Each input block read where the result block's rows are: the four node windows move with the result window,
    the seven weight windows are their whole arrays. -/

theorem x_block_apply (c : Dev nD) (t : Fin cfg1.N) (p : Fin 5000) (k : Fin 64) :
    (iblk1 (F := Ideal) V c 0 t : Vec Ideal S5000x64 .f32) (ix2 p k)
      = (V c main_arg0 : S100000x64.Idx → EReal) (ix2 ⟨t.val * 5000 + p.val, row_lt t p⟩ k) := by
  obtain ⟨⟨e0, e1⟩, -⟩ := block_indices t
  unfold iblk1
  rw [View.read_apply]
  show V c main_arg0 _ = V c main_arg0 _
  congr 1
  funext a
  apply Fin.ext
  match a with
  | ⟨0, _⟩ => show win1_0.index t (0 : Fin 2) * 5000 + 1 * p.val = t.val * 5000 + p.val; rw [e0]; omega
  | ⟨1, _⟩ => show win1_0.index t (1 : Fin 2) * 64 + 1 * k.val = k.val; rw [e1]; omega

theorem sums_block_apply (c : Dev nD) (t : Fin cfg1.N) (p : Fin 5000) (k : Fin 64) :
    (iblk1 (F := Ideal) V c 1 t : Vec Ideal S5000x64 .f32) (ix2 p k)
      = (V c main_v12 : S100000x64.Idx → EReal) (ix2 ⟨t.val * 5000 + p.val, row_lt t p⟩ k) := by
  obtain ⟨-, ⟨e0, e1⟩, -⟩ := block_indices t
  unfold iblk1
  rw [View.read_apply]
  show V c main_v12 _ = V c main_v12 _
  congr 1
  funext a
  apply Fin.ext
  match a with
  | ⟨0, _⟩ => show win1_1.index t (0 : Fin 2) * 5000 + 1 * p.val = t.val * 5000 + p.val; rw [e0]; omega
  | ⟨1, _⟩ => show win1_1.index t (1 : Fin 2) * 64 + 1 * k.val = k.val; rw [e1]; omega

theorem cnt_block_apply (c : Dev nD) (t : Fin cfg1.N) (p : Fin 5000) (k : Fin 1) :
    (iblk1 (F := Ideal) V c 2 t : Vec Ideal S5000x1 .f32) (ix2 p k)
      = (V c main_v16 : S100000x1.Idx → EReal) (ix2 ⟨t.val * 5000 + p.val, row_lt t p⟩ k) := by
  obtain ⟨-, -, ⟨e0, e1⟩, -⟩ := block_indices t
  unfold iblk1
  rw [View.read_apply]
  show V c main_v16 _ = V c main_v16 _
  congr 1
  funext a
  apply Fin.ext
  match a with
  | ⟨0, _⟩ => show win1_2.index t (0 : Fin 2) * 5000 + 1 * p.val = t.val * 5000 + p.val; rw [e0]; omega
  | ⟨1, _⟩ => show win1_2.index t (1 : Fin 2) * 1 + 1 * k.val = k.val; rw [e1]; omega

theorem ids_block_apply (c : Dev nD) (t : Fin cfg1.N) (p : Fin 5000) (k : Fin 1) :
    (iblk1 (F := Ideal) V c 3 t : Vec Ideal S5000x1 .i32) (ix2 p k)
      = (V c main_v4 : S100000x1.Idx → BitVec 32) (ix2 ⟨t.val * 5000 + p.val, row_lt t p⟩ k) := by
  obtain ⟨-, -, -, ⟨e0, e1⟩, -⟩ := block_indices t
  unfold iblk1
  rw [View.read_apply]
  show V c main_v4 _ = V c main_v4 _
  congr 1
  funext a
  apply Fin.ext
  match a with
  | ⟨0, _⟩ => show win1_3.index t (0 : Fin 2) * 5000 + 1 * p.val = t.val * 5000 + p.val; rw [e0]; omega
  | ⟨1, _⟩ => show win1_3.index t (1 : Fin 2) * 1 + 1 * k.val = k.val; rw [e1]; omega

theorem u_block_eq (c : Dev nD) (t : Fin cfg1.N) :
    (iblk1 (F := Ideal) V c 4 t : Vec Ideal S64x32 .f32) = (V c main_arg3 : S64x32.Idx → EReal) := by
  obtain ⟨-, -, -, -, ⟨e0, e1⟩, -⟩ := block_indices t
  unfold iblk1
  funext y
  rw [View.read_apply]
  show V c main_arg3 _ = V c main_arg3 y
  congr 1
  funext a
  apply Fin.ext
  match a with
  | ⟨0, _⟩ => show win1_4.index t (0 : Fin 2) * 64 + 1 * (y 0).val = (y 0).val; rw [e0]; omega
  | ⟨1, _⟩ => show win1_4.index t (1 : Fin 2) * 32 + 1 * (y 1).val = (y 1).val; rw [e1]; omega

theorem w1a_block_eq (c : Dev nD) (t : Fin cfg1.N) :
    (iblk1 (F := Ideal) V c 5 t : Vec Ideal S64x128 .f32) = (V c main_v17 : S64x128.Idx → EReal) := by
  obtain ⟨-, -, -, -, -, ⟨e0, e1⟩, -⟩ := block_indices t
  unfold iblk1
  funext y
  rw [View.read_apply]
  show V c main_v17 _ = V c main_v17 y
  congr 1
  funext a
  apply Fin.ext
  match a with
  | ⟨0, _⟩ => show win1_5.index t (0 : Fin 2) * 64 + 1 * (y 0).val = (y 0).val; rw [e0]; omega
  | ⟨1, _⟩ => show win1_5.index t (1 : Fin 2) * 128 + 1 * (y 1).val = (y 1).val; rw [e1]; omega

theorem w1b_block_eq (c : Dev nD) (t : Fin cfg1.N) :
    (iblk1 (F := Ideal) V c 6 t : Vec Ideal S64x128 .f32) = (V c main_v18 : S64x128.Idx → EReal) := by
  obtain ⟨-, -, -, -, -, -, ⟨e0, e1⟩, -⟩ := block_indices t
  unfold iblk1
  funext y
  rw [View.read_apply]
  show V c main_v18 _ = V c main_v18 y
  congr 1
  funext a
  apply Fin.ext
  match a with
  | ⟨0, _⟩ => show win1_6.index t (0 : Fin 2) * 64 + 1 * (y 0).val = (y 0).val; rw [e0]; omega
  | ⟨1, _⟩ => show win1_6.index t (1 : Fin 2) * 128 + 1 * (y 1).val = (y 1).val; rw [e1]; omega

theorem w1c_block_eq (c : Dev nD) (t : Fin cfg1.N) :
    (iblk1 (F := Ideal) V c 7 t : Vec Ideal S32x128 .f32) = (V c main_v19 : S32x128.Idx → EReal) := by
  obtain ⟨-, -, -, -, -, -, -, ⟨e0, e1⟩, -⟩ := block_indices t
  unfold iblk1
  funext y
  rw [View.read_apply]
  show V c main_v19 _ = V c main_v19 y
  congr 1
  funext a
  apply Fin.ext
  match a with
  | ⟨0, _⟩ => show win1_7.index t (0 : Fin 2) * 32 + 1 * (y 0).val = (y 0).val; rw [e0]; omega
  | ⟨1, _⟩ => show win1_7.index t (1 : Fin 2) * 128 + 1 * (y 1).val = (y 1).val; rw [e1]; omega

theorem b1_block_eq (c : Dev nD) (t : Fin cfg1.N) :
    (iblk1 (F := Ideal) V c 8 t : Vec Ideal S128 .f32) = (V c main_arg11 : S128.Idx → EReal) := by
  obtain ⟨-, -, -, -, -, -, -, -, e0, -⟩ := block_indices t
  unfold iblk1
  funext y
  rw [View.read_apply]
  show V c main_arg11 _ = V c main_arg11 y
  congr 1
  funext a
  apply Fin.ext
  match a with
  | ⟨0, _⟩ => show win1_8.index t (0 : Fin 1) * 128 + 1 * (y 0).val = (y 0).val; rw [e0]; omega

theorem w2_block_eq (c : Dev nD) (t : Fin cfg1.N) :
    (iblk1 (F := Ideal) V c 9 t : Vec Ideal S128x64 .f32) = (V c main_arg12 : S128x64.Idx → EReal) := by
  obtain ⟨-, -, -, -, -, -, -, -, -, ⟨e0, e1⟩, -⟩ := block_indices t
  unfold iblk1
  funext y
  rw [View.read_apply]
  show V c main_arg12 _ = V c main_arg12 y
  congr 1
  funext a
  apply Fin.ext
  match a with
  | ⟨0, _⟩ => show win1_9.index t (0 : Fin 2) * 128 + 1 * (y 0).val = (y 0).val; rw [e0]; omega
  | ⟨1, _⟩ => show win1_9.index t (1 : Fin 2) * 64 + 1 * (y 1).val = (y 1).val; rw [e1]; omega

theorem b2_block_eq (c : Dev nD) (t : Fin cfg1.N) :
    (iblk1 (F := Ideal) V c 10 t : Vec Ideal S64 .f32) = (V c main_arg13 : S64.Idx → EReal) := by
  obtain ⟨-, -, -, -, -, -, -, -, -, -, e0, -⟩ := block_indices t
  unfold iblk1
  funext y
  rw [View.read_apply]
  show V c main_arg13 _ = V c main_arg13 y
  congr 1
  funext a
  apply Fin.ext
  match a with
  | ⟨0, _⟩ => show win1_10.index t (0 : Fin 1) * 64 + 1 * (y 0).val = (y 0).val; rw [e0]; omega

/-- Entry (p, q) of the result window's block t is entry (5000 t + p, q) of the result array. -/
theorem result_block_entry (t : Fin cfg1.N) (p : Fin 5000) (q : Fin 64) :
    ((cfg1.win 11).blk t).view.emb (ix2 p q) = (ix2 ⟨t.val * 5000 + p.val, row_lt t p⟩ q : S100000x64.Idx) := by
  obtain ⟨-, -, -, -, -, -, -, -, -, -, -, e0, e1⟩ := block_indices t
  funext a
  apply Fin.ext
  match a with
  | ⟨0, _⟩ => show win1_11.index t (0 : Fin 2) * 5000 + 1 * p.val = t.val * 5000 + p.val; rw [e0]; omega
  | ⟨1, _⟩ => show win1_11.index t (1 : Fin 2) * 64 + 1 * q.val = q.val; rw [e1]; omega

/-- What point t writes back is block t of the update perceptron of the region's input arrays. -/
theorem flushed_update (c : Dev nD) (t : Fin cfg1.N) :
    (dat1 (F := Ideal) V c).flushed 11 t
      = ((cfg1.win 11).blk t).view.read (Elt Ideal)
          (Cert.NodeModel.updArr (V c main_arg0) (V c main_v12) (V c main_v16) (V c main_v4) (V c main_arg3) (V c main_v17)
            (V c main_v18) (V c main_v19) (V c main_arg11) (V c main_arg12) (V c main_arg13)) := by
  show (cfg1.win 11).cut (grid1.coords t) ((dat1 (F := Ideal) V c).after 11 t) = _
  rw [after1_11]
  unfold out1_11
  rw [View.canon_unit_zero zeroOffsets2]
  simp only [View.ld_unit_zero (S := S5000x64) zeroOffsets2, View.ld_unit_zero (S := S5000x1) zeroOffsets2, View.ld_unit_zero (S := S64x32) zeroOffsets2,
    View.ld_unit_zero (S := S64x128) zeroOffsets2, View.ld_unit_zero (S := S32x128) zeroOffsets2, View.ld_unit_zero (S := S128x64) zeroOffsets2,
    View.ld_unit_zero (S := S128) zeroOffsets1, View.ld_unit_zero (S := S64) zeroOffsets1]
  funext j
  obtain ⟨p, q, rfl⟩ : ∃ (p : Fin 5000) (q : Fin 64), j = ix2 p q := ⟨j 0, j 1, eq_ix2 j⟩
  show k1_pay1 (F := Ideal) (k1_pay2 (iblk1 V c 1 t) (iblk1 V c 2 t) (iblk1 V c 3 t) (iblk1 V c 4 t) (iblk1 V c 0 t)
        (iblk1 V c 5 t) (iblk1 V c 6 t) (iblk1 V c 7 t)) (iblk1 V c 8 t) (iblk1 V c 9 t) (iblk1 V c 10 t) (ix2 p q)
      = Cert.NodeModel.updArr (V c main_arg0) (V c main_v12) (V c main_v16) (V c main_v4) (V c main_arg3) (V c main_v17)
          (V c main_v18) (V c main_v19) (V c main_arg11) (V c main_arg12) (V c main_arg13)
          (((cfg1.win 11).blk t).view.emb (ix2 p q))
  rw [body_apply, result_block_entry, Cert.NodeModel.updArr_ix2]
  exact updAt_congr _ _ _ _ _ _ _ _ _ _ _ _ _ _ _ _ _ _ _ _ _ _ _ _ _
    (fun k => x_block_apply V c t p k) (fun k => sums_block_apply V c t p k) (cnt_block_apply V c t p 0) (ids_block_apply V c t p 0)
    (u_block_eq V c t) (w1a_block_eq V c t) (w1b_block_eq V c t) (w1c_block_eq V c t) (b1_block_eq V c t) (w2_block_eq V c t) (b2_block_eq V c t)

/-- An index of the result array is in point t's block iff each coordinate is in the block's range on its axis. -/
theorem mem_result_block (t : Fin cfg1.N) (i : S100000x64.Idx) :
    i ∈ ((cfg1.win 11).blk t).view.set
      ↔ ∀ a : Fin 2, win1_11.index t a * S5000x64.size a ≤ (i a).val
          ∧ (i a).val < win1_11.index t a * S5000x64.size a + S5000x64.size a := by
  show i ∈ ((View.whole main_v20).slice (win1_11.rect t)).set ↔ _
  rw [View.set_slice_whole, Rect.mem_set_unit]
  exact Iff.rfl

/-- Every node's row is in the block of the point its number divided by 5000 names: the 20 blocks tile the array. -/
theorem result_blocks_cover (i : S100000x64.Idx) :
    ∃ t : Fin cfg1.N, (cfg1.win 11).flush t = true ∧ i ∈ ((cfg1.win 11).blk t).view.set := by
  have hi0 : (i 0).val < 100000 := (i 0).isLt
  have hi1 : (i 1).val < 64 := (i 1).isLt
  have ht : (i 0).val / 5000 < cfg1.N := by rw [show cfg1.N = 20 from N_1]; omega
  obtain ⟨-, -, -, -, -, -, -, -, -, -, -, e0, e1⟩ := block_indices ⟨(i 0).val / 5000, ht⟩
  refine ⟨⟨(i 0).val / 5000, ht⟩, flush1_11 _, ?_⟩
  rw [mem_result_block]
  intro a
  match a with
  | ⟨0, _⟩ =>
    show win1_11.index ⟨(i 0).val / 5000, ht⟩ (0 : Fin 2) * 5000 ≤ (i 0).val
      ∧ (i 0).val < win1_11.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_11.index ⟨(i 0).val / 5000, ht⟩ (1 : Fin 2) * 64 ≤ (i 1).val
      ∧ (i 1).val < win1_11.index ⟨(i 0).val / 5000, ht⟩ (1 : Fin 2) * 64 + 64
    rw [e1]
    omega

/-- After the 20 points the result array holds the update perceptron of the region's input arrays. -/
theorem final1 (c : Dev nD) :
    (dat1 (F := Ideal) V c).arrAt 11 cfg1.N
      = Cert.NodeModel.updArr (V c main_arg0) (V c main_v12) (V c main_v16) (V c main_v4) (V c main_arg3) (V c main_v17)
          (V c main_v18) (V c main_v19) (V c main_arg11) (V c main_arg12) (V c main_arg13) :=
  (dat1 (F := Ideal) V c).arrAt_eq_of_cover 11 _ (fun t _ => flushed_update V c t) result_blocks_cover

end Cert.KernelIdeal.UpdRegion

end
-- ==== Proof.KValue.lean ====
/-
  The kernel program's result as one term of its arguments: each pallas_call leaves its perceptron of the arrays it is
  entered with, so the result is the update perceptron of the node features, the scattered sums and counts of the
  message perceptron's output, the graph ids and the weights.
-/
import proofs.«410165_j28484223107667_3_alg».proof.Proof.KHost
import proofs.«410165_j28484223107667_3_alg».proof.Proof.KRegion0
import proofs.«410165_j28484223107667_3_alg».proof.Proof.KRegion1

set_option maxRecDepth 16384

noncomputable section

namespace Cert.KernelIdeal.KValue

open Cert.KernelIdeal Cert.KernelIdeal.Gen Cert.KernelIdeal.KHost Idealize.ShloMosaic Idealize.ShloMosaic.TcCoe Idealize.SL.Sem
open Cert.NodeModel

variable (m : (ℓ : Loc nD τ sig) → Buf (Elt Ideal) ℓ) (ρ : Dev nD → PrngReg)

/-- Region 0 leaves the messages of the gathered rows in its result array. -/
theorem W4_v9 (c : Dev nD) : W4 m ρ c (Proc.devRef .tc main_v9) = msgK m c := by
  rw [show W4 m ρ c (Proc.devRef .tc main_v9) = (dat0 (V3 m ρ) c).arrAt 8 cfg0.N from W4_arr m ρ c 8]
  rw [Cert.KernelIdeal.MsgRegion.final0 (V3 m ρ) c, V3_v6, V3_v7, V3_v8, V3_arg2, V3_arg5, V3_arg7, V3_arg8, V3_arg9]

/-- The kernel program's result array. -/
theorem result (c : Dev nD) :
    W6 m ρ c (Proc.devRef .tc main_v20)
      = updArr (m ((c : Thread nD τ).loc main_arg0)) (sumsK m c) (cntK m c) (nbK m c) (m ((c : Thread nD τ).loc main_arg3))
          (u1aK m c) (u1bK m c) (u1cK m c) (m ((c : Thread nD τ).loc main_arg11)) (m ((c : Thread nD τ).loc main_arg12))
          (m ((c : Thread nD τ).loc main_arg13)) := by
  rw [show W6 m ρ c (Proc.devRef .tc main_v20) = (dat1 (V5 m ρ) c).arrAt 11 cfg1.N from W6_arr m ρ c 11]
  rw [Cert.KernelIdeal.UpdRegion.final1 (V5 m ρ) c, V5_arg0, V5_v12 m ρ c (W4_v9 m ρ c), V5_v16, V5_v4, V5_arg3, V5_v17, V5_v18,
    V5_v19, V5_arg11, V5_arg12, V5_arg13]

end Cert.KernelIdeal.KValue

end
-- ==== Proof.RefRead.lean ====
/-
  The reference's run and its read-at-an-index lemmas, brought into scope for the modules that compare the reference's
  value with the kernel's.
-/
import proofs.«410165_j28484223107667_3_alg».proof.Proof.Gen.ReferenceIdeal.Run
import proofs.«410165_j28484223107667_3_alg».proof.Proof.Gen.ReferenceIdeal.Read
-- ==== Proof.LibScatterRead.lean ====
/-
  Host scatters and gathers read at an index, at the extended reals: what `x.at[idx].add(u)` and `x[idx]` over
  rows hold at one element, as a sum over the updates that land there / as the operand's row at the clamped index.
  General lemmas over any sizes; they import no program.
-/
import Idealize.ShloMosaic.Lib.ValueIdx
import Idealize.ShloMosaic.PureOps.Ideal.Laws

noncomputable section

open scoped BigOperators

namespace Idealize.ShloMosaic.ScatterRead

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) :=
  (Equiv.sum_comp (idxEquiv1 (n := n)).symm f).symm

/-- An update lands at operand index `i` exactly when, on every operand axis, its window's start plus its window
    coordinate is `i`'s coordinate there (the start read signed: a sum that is negative or past the axis's end is no
    coordinate of any `i`, and the update is dropped). -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · next h =>
    rw [Option.some.injEq]
    constructor
    · rintro rfl a
      have := h a
      show d.start j idx a + (d.window j a : ℤ) = ((d.start j idx a + (d.window j a : ℤ)).toNat : ℤ)
      omega
    · intro hi
      funext a
      apply Fin.ext
      show (d.start j idx a + (d.window j a : ℤ)).toNat = (i a).val
      have := hi a
      omega
  · next h =>
    constructor
    · intro h'
      cases h'
    · intro hi
      exfalso
      apply h
      intro a
      have := hi a
      have := (i a).isLt
      omega

/-- The dimension numbers of a row scatter: the updates' axis 1 is the window, going to the operand's axis 1; the
    operand's axis 0 is inserted and is the one the scatter index names; the index vector is the column's axis 1. -/
abbrev rowsDims (N M D : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Where update `(v, k')` of a row scatter lands: at `(g, k)` exactly when `v`'s index, read signed, is `g` and
    `k' = k` (the window starts at row = the index, column 0, and the window coordinate is `k'` on the column axis). -/
theorem rows_resultIdx?_iff {N M D w : Nat} (wf : ScatterDims.WF ⟨2, ![N, D]⟩ ⟨2, ![M, 1]⟩ ⟨2, ![M, D]⟩ [1] [0] [0] 1)
    (idx : IVec ⟨2, ![M, 1]⟩ w) (v : Fin M) (k' : Fin D) (g : Fin N) (k : Fin D) :
    (rowsDims N M D wf).resultIdx? (ix2 v k') idx = some (ix2 g k)
      ↔ (idx (ix2 v (0 : Fin 1))).toInt = (g.val : ℤ) ∧ k' = k := by
  rw [resultIdx?_eq_some_iff]
  -- the scatter index of update `(v, k')` is read at `(v, 0)`
  have hsi : (rowsDims N M D wf).siIdx (ix2 v k') ⟨0, Nat.one_pos⟩ = ix2 v (0 : Fin 1) := by
    funext b
    match b with
    | ⟨0, _⟩ => rfl
    | ⟨1, _⟩ => rfl
  -- starts and window coordinates on the two operand axes
  have e0 : (rowsDims N M D wf).start (ix2 v k') idx 0 = (idx (ix2 v (0 : Fin 1))).toInt := by rw [← hsi]; rfl
  have e1 : (rowsDims N M D wf).start (ix2 v k') idx 1 = 0 := rfl
  have w0 : (rowsDims N M D wf).window (ix2 v k') 0 = 0 := rfl
  have w1 : (rowsDims N M D wf).window (ix2 v k') 1 = k'.val := rfl
  constructor
  · intro h
    have h0 : (rowsDims N M D wf).start (ix2 v k') idx 0 + ((rowsDims N M D wf).window (ix2 v k') 0 : ℤ) = (g.val : ℤ) := h 0
    have h1 : (rowsDims N M D wf).start (ix2 v k') idx 1 + ((rowsDims N M D wf).window (ix2 v k') 1 : ℤ) = (k.val : ℤ) := h 1
    rw [e0, w0] at h0
    rw [e1, w1] at h1
    refine ⟨by simpa using h0, Fin.ext ?_⟩
    omega
  · rintro ⟨hg, rfl⟩
    have t0 : (rowsDims N M D wf).start (ix2 v k') idx 0 + ((rowsDims N M D wf).window (ix2 v k') 0 : ℤ) = (g.val : ℤ) := by
      rw [e0, w0, hg]; simp
    have t1 : (rowsDims N M D wf).start (ix2 v k') idx 1 + ((rowsDims N M D wf).window (ix2 v k') 1 : ℤ) = (k'.val : ℤ) := by
      rw [e1, w1]; simp
    intro a
    match a with
    | ⟨0, _⟩ => exact t0
    | ⟨1, _⟩ => exact t1

/-- A row scatter-add (`x.at[idx].add(u)` over the first axis of a matrix, the indices an [M × 1] column): element
    `(g, k)` of the result is the operand's plus the sum of the updates' column-`k` entries of the rows `v` whose
    index, read signed, is `g`; a row whose index is outside `[0, N)` lands nowhere. -/
theorem scatterAdd_rows_apply {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0])
    (hiv : d.indexVectorDim = 1)
    (x : (⟨2, ![N, D]⟩ : Shape).Idx → EReal) (idx : IVec ⟨2, ![M, 1]⟩ w) (upd : (⟨2, ![M, D]⟩ : Shape).Idx → EReal)
    (g : Fin N) (k : Fin D) :
    Ideal.hostScatterAdd d x idx upd (ix2 g k)
      = x (ix2 g k) + ∑ v ∈ Finset.univ.filter (fun v : Fin M => (idx (ix2 v (0 : Fin 1))).toInt = (g.val : ℤ)), upd (ix2 v k) := by
  obtain ⟨uw, iw, sd, iv, wf⟩ := d
  dsimp only at huw hiw hsd hiv
  subst huw hiw hsd hiv
  show x (ix2 g k) + ∑ j ∈ Finset.univ.filter (fun j => (rowsDims N M D wf).resultIdx? j idx = some (ix2 g k)), upd j = _
  congr 1
  -- the sum over the updates `(v, k')` that land at `(g, k)`, as a double sum over rows and columns
  rw [Finset.sum_filter, Finset.sum_filter, sum_idx2]
  refine Finset.sum_congr rfl fun v _ => ?_
  simp only [rows_resultIdx?_iff]
  by_cases hv : (idx (ix2 v (0 : Fin 1))).toInt = (g.val : ℤ)
  · simp [hv]
  · simp [hv]

/-- The dimension numbers of a flat scatter: the updates have no window axis; the operand's one axis is inserted and
    is the one the scatter index names; the index vector is the column's axis 1. -/
abbrev flatDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where update `v` of a flat scatter lands: at `g` exactly when `v`'s index, read signed, is `g` (the window is
    the one element at the index). -/
theorem flat_resultIdx?_iff {N M w : Nat} (wf : ScatterDims.WF ⟨1, ![N]⟩ ⟨2, ![M, 1]⟩ ⟨1, ![M]⟩ [] [0] [0] 1)
    (idx : IVec ⟨2, ![M, 1]⟩ w) (v : Fin M) (g : Fin N) :
    (flatDims N M wf).resultIdx? (ix1 v) idx = some (ix1 g) ↔ (idx (ix2 v (0 : Fin 1))).toInt = (g.val : ℤ) := by
  rw [resultIdx?_eq_some_iff]
  -- the scatter index of update `v` is read at `(v, 0)`
  have hsi : (flatDims N M wf).siIdx (ix1 v) ⟨0, Nat.one_pos⟩ = ix2 v (0 : Fin 1) := by
    funext b
    match b with
    | ⟨0, _⟩ => rfl
    | ⟨1, _⟩ => rfl
  have e0 : (flatDims N M wf).start (ix1 v) idx 0 = (idx (ix2 v (0 : Fin 1))).toInt := by rw [← hsi]; rfl
  have w0 : (flatDims N M wf).window (ix1 v) 0 = 0 := rfl
  constructor
  · intro h
    have h0 : (flatDims N M wf).start (ix1 v) idx 0 + ((flatDims N M wf).window (ix1 v) 0 : ℤ) = (g.val : ℤ) := h 0
    rw [e0, w0] at h0
    simpa using h0
  · intro hg
    have t0 : (flatDims N M wf).start (ix1 v) idx 0 + ((flatDims N M wf).window (ix1 v) 0 : ℤ) = (g.val : ℤ) := by
      rw [e0, w0, hg]; simp
    intro a
    match a with
    | ⟨0, _⟩ => exact t0

/-- A flat scatter-add (`x.at[idx].add(u)` over a vector): element `g` is the operand's plus the sum of the updates
    whose index, read signed, is `g`. -/
theorem scatterAdd_flat_apply {N M w : Nat} (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![M, 1]⟩ w) (upd : (⟨1, ![M]⟩ : Shape).Idx → EReal)
    (g : Fin N) :
    Ideal.hostScatterAdd d x idx upd (ix1 g)
      = x (ix1 g) + ∑ v ∈ Finset.univ.filter (fun v : Fin M => (idx (ix2 v (0 : Fin 1))).toInt = (g.val : ℤ)), upd (ix1 v) := by
  obtain ⟨uw, iw, sd, iv, wf⟩ := d
  dsimp only at huw hiw hsd hiv
  subst huw hiw hsd hiv
  show x (ix1 g) + ∑ j ∈ Finset.univ.filter (fun j => (flatDims N M wf).resultIdx? j idx = some (ix1 g)), upd j = _
  congr 1
  -- the updates' index set is its one coordinate's range
  rw [Finset.sum_filter, Finset.sum_filter, sum_idx1]
  refine Finset.sum_congr rfl fun v _ => ?_
  simp only [flat_resultIdx?_iff]

/-- A row gather (`x[idx]` over the first axis of a matrix, the indices an [M × 1] column): row `e` of the result
    is the operand's row at `e`'s index read signed and clamped into `[0, N − 1]`. -/
theorem gather_rows_apply {α : Type} {N M D w : Nat} (hN : 0 < N) (d : GatherDims ⟨2, ![N, D]⟩ ⟨2, ![M, 1]⟩ ⟨2, ![M, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![M, 1]⟩ w) (e : Fin M) (k : Fin D) :
    Host.gather d x idx (ix2 e k) = x (ix2 (⟨min (idx (ix2 e (0 : Fin 1))).toInt.toNat (N - 1), by omega⟩ : Fin N) k) := by
  obtain ⟨od, cd, ob, sb, sm, iv, ss, wf⟩ := d
  dsimp only at hoff hcoll hob hsb hsim hivd hss
  subst hoff hcoll hob hsb hsim hivd hss
  unfold Host.gather
  congr 1
  funext a
  apply Fin.ext
  match a with
  | ⟨0, _⟩ =>
    -- the row axis: collapsed, start-indexed; the start index of result `(e, k)` is read at `(e, 0)`
    have hsi : (GatherDims.mk (s := ⟨2, ![N, D]⟩) (si := ⟨2, ![M, 1]⟩) (t := ⟨2, ![M, D]⟩) [1] [0] [] [] [0] 1 ![1, D] wf).siIdx
        (ix2 e k) ⟨0, Nat.one_pos⟩ = ix2 e (0 : Fin 1) := by
      funext b
      match b with
      | ⟨0, _⟩ => rfl
      | ⟨1, _⟩ => rfl
    show min (idx _).toInt.toNat (N - 1) + 0 + 0 = min (idx (ix2 e (0 : Fin 1))).toInt.toNat (N - 1)
    rw [← hsi]; rfl
  | ⟨1, _⟩ =>
    -- the column axis: kept, not start-indexed: start 0, offset coordinate `k`
    show 0 + 0 + k.val = k.val
    omega

end Idealize.ShloMosaic.ScatterRead

end
-- ==== Proof.RefValue.lean ====
/-
  The reference's value, one perceptron at a time: its message array is the message perceptron of the gathered source
  rows, and its result is the update perceptron of the scattered sums and counts. The reference multiplies a
  concatenated operand by the whole first-layer weight; the sum over the joined axis splits into the sums over the
  pieces, which is how the specification (and the kernel) arranges it. A graph id in [0, 64) gathers the table's
  row at that id, which is what the one-hot sum of the specification picks.
-/
import proofs.«410165_j28484223107667_3_alg».proof.Proof.RefRead
import proofs.«410165_j28484223107667_3_alg».proof.Proof.Spec
import proofs.«410165_j28484223107667_3_alg».proof.Proof.LibScatterRead
import Idealize.ShloMosaic.Lib.Pipeline.Value
import Idealize.ShloMosaic.Lib.ValueIdx
import Idealize.ShloMosaic.Lib.Affine
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.NodeModel

variable (x0 : (⟨S100000x64, .f32⟩ : BufTy).Contents (Elt Ideal)) (x1 : (⟨S2x1000000, .i32⟩ : BufTy).Contents (Elt Ideal)) (x2 : (⟨S1000000x32, .f32⟩ : BufTy).Contents (Elt Ideal)) (x5 : (⟨S1000000x1, .f32⟩ : BufTy).Contents (Elt Ideal)) (x6 : (⟨S96x128, .f32⟩ : BufTy).Contents (Elt Ideal)) (x7 : (⟨S128, .f32⟩ : BufTy).Contents (Elt Ideal)) (x8 : (⟨S128x64, .f32⟩ : BufTy).Contents (Elt Ideal)) (x9 : (⟨S64, .f32⟩ : BufTy).Contents (Elt Ideal))
variable (xr : Mat 1000000 64) (w1a : Mat 64 128) (w1b : Mat 32 128)

/-! ## The message perceptron -/

/-- The joined operand of the first product, read at a column of its first piece: the gathered row. -/
theorem cat_left (e : Fin 1000000) (k : Fin 64) :
    val_main_v11 (F := Ideal) x0 x1 x2 (ix2 e (Fin.castAdd 32 k)) = val_main_v10 (F := Ideal) x0 x1 (ix2 e k) := by
  unfold val_main_v11
  exact concatenate_pair_apply_left (t := S1000000x96) (s₁ := S1000000x64) (s₂ := S1000000x32) (1 : Fin 2) _ _
    concatenates_S1000000x64_S1000000x32_S1000000x96_d1 (ix2 e (Fin.castAdd 32 k)) rfl (ix2 e k)
    (fun b => match b with | ⟨0, _⟩ => rfl | ⟨1, _⟩ => rfl)

/-- The joined operand read at a column of its second piece: the edge's features. -/
theorem cat_right (e : Fin 1000000) (k : Fin 32) :
    val_main_v11 (F := Ideal) x0 x1 x2 (ix2 e (Fin.natAdd 64 k)) = x2 (ix2 e k) := by
  unfold val_main_v11
  exact concatenate_pair_apply_right (t := S1000000x96) (s₁ := S1000000x64) (s₂ := S1000000x32) (1 : Fin 2) _ _
    concatenates_S1000000x64_S1000000x32_S1000000x96_d1 (ix2 e (Fin.natAdd 64 k)) rfl rfl (ix2 e k)
    (fun b hb => match b, hb with | ⟨0, _⟩, _ => rfl | ⟨1, _⟩, hb => absurd rfl hb)
    (by show k.val + 64 = 64 + k.val; omega)

/-- The reference's rectified hidden unit is the specification's, once the gathered rows and the two slices of the
    first-layer weight are named: the sum over the 96 joined columns is the sum over the 64 gathered ones plus the
    sum over the 32 feature ones. -/
theorem hid_ref
    (hxr : ∀ (e : Fin 1000000) (k : Fin 64), val_main_v10 (F := Ideal) x0 x1 (ix2 e k) = xr (ix2 e k))
    (hw1a : ∀ (k : Fin 64) (h : Fin 128), w1a (ix2 k h) = x6 (ix2 (Fin.castAdd 32 k) h))
    (hw1b : ∀ (k : Fin 32) (h : Fin 128), w1b (ix2 k h) = x6 (ix2 (Fin.natAdd 64 k) h))
    (e : Fin 1000000) (h : Fin 128) :
    val_main_v16 (F := Ideal) x0 x1 x2 x6 x7 (ix2 e h) = msgHid xr x2 w1a w1b x7 e h := by
  rw [val_main_v16_apply, val_main_v15_apply, val_main_v12_apply, val_main_v14_apply, val_main_v13_apply,
    val_main_call0_v0_apply, val_main_call0_cst_apply]
  have el : ∀ k : Fin 96, lidx_main_v12 (ix2 e h) k = ix2 e k := fun k =>
    funext fun a => Fin.ext (by match a with | ⟨0, _⟩ => rfl | ⟨1, _⟩ => rfl)
  have er : ∀ k : Fin 96, ridx_main_v12 (ix2 e h) k = ix2 k h := fun k =>
    funext fun a => Fin.ext (by match a with | ⟨0, _⟩ => rfl | ⟨1, _⟩ => rfl)
  have eb : idx_main_v13 (idx_main_v14 (ix2 e h)) = ix1 h :=
    funext fun a => Fin.ext (by match a with | ⟨0, _⟩ => rfl)
  simp only [el, er, eb]
  rw [sum_split_96]
  simp only [cat_left, cat_right, hxr, ← hw1a, ← hw1b]
  unfold msgHid
  show max (_ + _) (Ideal.ofBits .f32 0x00000000#32) = _
  rw [Ideal.ofBits_zero_f32]

/-- The reference's message array is the message perceptron of the gathered rows. -/
theorem msg_ref
    (hxr : ∀ (e : Fin 1000000) (k : Fin 64), val_main_v10 (F := Ideal) x0 x1 (ix2 e k) = xr (ix2 e k))
    (hw1a : ∀ (k : Fin 64) (h : Fin 128), w1a (ix2 k h) = x6 (ix2 (Fin.castAdd 32 k) h))
    (hw1b : ∀ (k : Fin 32) (h : Fin 128), w1b (ix2 k h) = x6 (ix2 (Fin.natAdd 64 k) h)) :
    val_main_v22 (F := Ideal) x0 x1 x2 x5 x6 x7 x8 x9 = msgArr xr x2 x5 w1a w1b x7 x8 x9 := by
  funext i
  obtain ⟨e, j, rfl⟩ : ∃ (e : Fin 1000000) (j : Fin 64), i = ix2 e j := ⟨i 0, i 1, eq_ix2 i⟩
  rw [msgArr_ix2, val_main_v22_apply, val_main_v20_apply, val_main_v17_apply, val_main_v21_apply, val_main_v19_apply,
    val_main_v18_apply]
  have el : ∀ k : Fin 128, lidx_main_v17 (ix2 e j) k = ix2 e k := fun k =>
    funext fun a => Fin.ext (by match a with | ⟨0, _⟩ => rfl | ⟨1, _⟩ => rfl)
  have er : ∀ k : Fin 128, ridx_main_v17 (ix2 e j) k = ix2 k j := fun k =>
    funext fun a => Fin.ext (by match a with | ⟨0, _⟩ => rfl | ⟨1, _⟩ => rfl)
  have eb : idx_main_v18 (idx_main_v19 (ix2 e j)) = ix1 j :=
    funext fun a => Fin.ext (by match a with | ⟨0, _⟩ => rfl)
  have ew : idx_main_v21 (ix2 e j) = ix2 e (0 : Fin 1) :=
    funext fun a => Fin.ext (by match a with | ⟨0, _⟩ => rfl | ⟨1, _⟩ => rfl)
  simp only [el, er, eb, ew, hid_ref x0 x1 x2 x6 x7 xr w1a w1b hxr hw1a hw1b]
  rfl

/-! ## The update perceptron -/

section Update

variable (x3 : (⟨S64x32, .f32⟩ : BufTy).Contents (Elt Ideal)) (x4 : (⟨S100000, .i32⟩ : BufTy).Contents (Elt Ideal)) (x10 : (⟨S160x128, .f32⟩ : BufTy).Contents (Elt Ideal)) (x11 : (⟨S128, .f32⟩ : BufTy).Contents (Elt Ideal)) (x12 : (⟨S128x64, .f32⟩ : BufTy).Contents (Elt Ideal)) (x13 : (⟨S64, .f32⟩ : BufTy).Contents (Elt Ideal))
variable (sums : Mat 100000 64) (cnt : Mat 100000 1) (nb : (⟨2, ![100000, 1]⟩ : Shape).Idx → BitVec 32)
variable (u1a u1b : Mat 64 128) (u1c : Mat 32 128)

/-- The word 0x3F800000 is the real one. -/
theorem ofBits_one_f32 : Ideal.ofBits .f32 0x3F800000#32 = 1 := by
  simp [Ideal.ofBits, Ideal.ieee, -EReal.coe_mul]; norm_num

/-- The joined operand of the update's first product at a column of its first piece: the node's features. -/
theorem cat3_a (n : Fin 100000) (k : Fin 64) :
    val_main_v41 (F := Ideal) x0 x1 x2 x3 x4 x5 x6 x7 x8 x9 (ix2 n (Fin.castAdd 32 (Fin.castAdd 64 k))) = x0 (ix2 n k) := by
  unfold val_main_v41
  exact concatenate_apply_piece (α := EReal) (t := S100000x160) (1 : Fin 2)
    [⟨S100000x64, x0⟩, ⟨S100000x64, val_main_v33 (F := Ideal) x0 x1 x2 x5 x6 x7 x8 x9⟩, ⟨S100000x32, val_main_v40 (F := Ideal) x3 x4⟩]
    concatenates_S100000x64_S100000x64_S100000x32_S100000x160_d1
    (ix2 n (Fin.castAdd 32 (Fin.castAdd 64 k))) 0 (by simp) S100000x64 _ rfl rfl 0 rfl (ix2 n k)
    (fun b hb => match b, hb with | ⟨0, _⟩, _ => rfl | ⟨1, _⟩, hb => absurd rfl hb)
    (by show 0 + k.val = k.val; omega)

/-- At a column of its second piece: the mean of the incoming messages. -/
theorem cat3_b (n : Fin 100000) (k : Fin 64) :
    val_main_v41 (F := Ideal) x0 x1 x2 x3 x4 x5 x6 x7 x8 x9 (ix2 n (Fin.castAdd 32 (Fin.natAdd 64 k)))
      = val_main_v33 (F := Ideal) x0 x1 x2 x5 x6 x7 x8 x9 (ix2 n k) := by
  unfold val_main_v41
  exact concatenate_apply_piece (α := EReal) (t := S100000x160) (1 : Fin 2)
    [⟨S100000x64, x0⟩, ⟨S100000x64, val_main_v33 (F := Ideal) x0 x1 x2 x5 x6 x7 x8 x9⟩, ⟨S100000x32, val_main_v40 (F := Ideal) x3 x4⟩]
    concatenates_S100000x64_S100000x64_S100000x32_S100000x160_d1
    (ix2 n (Fin.castAdd 32 (Fin.natAdd 64 k))) 1 (by simp) S100000x64 _ rfl rfl 64 rfl (ix2 n k)
    (fun b hb => match b, hb with | ⟨0, _⟩, _ => rfl | ⟨1, _⟩, hb => absurd rfl hb)
    (by show 64 + k.val = 64 + k.val; rfl)

/-- At a column of its third piece: the gathered row of the graph table. -/
theorem cat3_c (n : Fin 100000) (k : Fin 32) :
    val_main_v41 (F := Ideal) x0 x1 x2 x3 x4 x5 x6 x7 x8 x9 (ix2 n (Fin.natAdd 128 k))
      = val_main_v40 (F := Ideal) x3 x4 (ix2 n k) := by
  unfold val_main_v41
  exact concatenate_apply_piece (α := EReal) (t := S100000x160) (1 : Fin 2)
    [⟨S100000x64, x0⟩, ⟨S100000x64, val_main_v33 (F := Ideal) x0 x1 x2 x5 x6 x7 x8 x9⟩, ⟨S100000x32, val_main_v40 (F := Ideal) x3 x4⟩]
    concatenates_S100000x64_S100000x64_S100000x32_S100000x160_d1
    (ix2 n (Fin.natAdd 128 k)) 2 (by simp) S100000x32 _ rfl rfl 128 rfl (ix2 n k)
    (fun b hb => match b, hb with | ⟨0, _⟩, _ => rfl | ⟨1, _⟩, hb => absurd rfl hb)
    (by show 128 + k.val = 128 + k.val; rfl)

/-- The reference's mean of incoming messages, over the scattered sums and counts by their names. -/
theorem recv_ref
    (hsums : val_main_v25 (F := Ideal) x0 x1 x2 x5 x6 x7 x8 x9 = sums)
    (hcnt : val_main_v29 (F := Ideal) x1 = cnt) (n : Fin 100000) (k : Fin 64) :
    val_main_v33 (F := Ideal) x0 x1 x2 x5 x6 x7 x8 x9 (ix2 n k) = recvAt sums cnt n k := by
  rw [val_main_v33_apply, val_main_v32_apply, val_main_v31_apply, val_main_v30_apply, val_main_cst_3_apply, hsums, hcnt]
  have e : idx_main_v32 (ix2 n k) = ix2 n (0 : Fin 1) :=
    funext fun a => Fin.ext (by match a with | ⟨0, _⟩ => rfl | ⟨1, _⟩ => rfl)
  rw [e]
  unfold recvAt
  show Ideal.div _ (max _ (Ideal.ofBits .f32 0x3F800000#32)) = _
  rw [ofBits_one_f32]

/-- A word that is not negative read signed, and below 64, is the word of its own value. -/
theorem word_of_range (w : BitVec 32) (h0 : 0 ≤ w.toInt) (h1 : w.toInt < 64) :
    w.toInt.toNat < 64 ∧ w = BitVec.ofNat 32 w.toInt.toNat := by
  have hlt : w.toNat < 2 ^ 32 := w.isLt
  have hi : w.toInt = (w.toNat : ℤ) := by
    rw [BitVec.toInt_eq_toNat_cond] at h0 ⊢
    split at h0 <;> rename_i hc
    · rw [if_pos hc]
    · exfalso; omega
  refine ⟨by omega, ?_⟩
  apply BitVec.eq_of_toNat_eq
  rw [BitVec.toNat_ofNat, hi, Int.toNat_natCast, Nat.mod_eq_of_lt hlt]

/-- The gathered row of the graph table is the one-hot sum's row, for a graph id in [0, 64): the id is not negative, so
    the select on "the id is negative" keeps it; it is below 64, so the gather's clamp keeps it too. -/
theorem urow_ref
    (hnb : ∀ n : Fin 100000, nb (ix2 n (0 : Fin 1)) = x4 (ix1 n))
    (hrange : ∀ n : Fin 100000, 0 ≤ (x4 (ix1 n)).toInt ∧ (x4 (ix1 n)).toInt < 64)
    (n : Fin 100000) (k : Fin 32) :
    val_main_v40 (F := Ideal) x3 x4 (ix2 n k) = urowAt nb x3 n k := by
  obtain ⟨h0, h1⟩ := hrange n
  obtain ⟨hg, hw⟩ := word_of_range _ h0 h1
  rw [urowAt_of_range nb x3 n k ⟨(x4 (ix1 n)).toInt.toNat, hg⟩ ((hnb n).trans hw)]
  unfold val_main_v40
  rw [Idealize.ShloMosaic.ScatterRead.gather_rows_apply (N := 64) (by decide) gather_S64x32_S100000x1_S100000x32_1_0_n_n_0_1_132
    rfl rfl rfl rfl rfl rfl rfl x3 (val_main_v39 (F := Ideal) x4) n k]
  have e39 : val_main_v39 (F := Ideal) x4 (ix2 n (0 : Fin 1)) = x4 (ix1 n) := by
    rw [val_main_v39_apply, val_main_v38_apply, val_main_v35_apply, val_main_v34_apply, val_main_c_4_apply]
    have e : idx_main_v39 (ix2 n (0 : Fin 1)) = ix1 n := funext fun a => Fin.ext (by match a with | ⟨0, _⟩ => rfl)
    rw [e]
    have hc : IntOp.cmpi .slt (x4 (ix1 n)) 0#32 = 0#1 := by
      apply eq_zero_of_ne_one
      intro hh
      have := IntOp.cmpi_slt.1 hh
      simp at this
      omega
    rw [hc, select_zero]
  congr 1
  funext a
  apply Fin.ext
  match a with
  | ⟨0, _⟩ =>
    show min (val_main_v39 (F := Ideal) x4 (ix2 n (0 : Fin 1))).toInt.toNat (64 - 1) = (x4 (ix1 n)).toInt.toNat
    rw [e39]; omega
  | ⟨1, _⟩ => rfl

set_option maxHeartbeats 1600000 in
/-- The reference's rectified hidden unit of a node is the specification's: the sum over the 160 joined columns is the
    sums over the node's features, the mean of its messages and its graph's row. -/
theorem updhid_ref
    (hsums : val_main_v25 (F := Ideal) x0 x1 x2 x5 x6 x7 x8 x9 = sums)
    (hcnt : val_main_v29 (F := Ideal) x1 = cnt)
    (hnb : ∀ n : Fin 100000, nb (ix2 n (0 : Fin 1)) = x4 (ix1 n))
    (hrange : ∀ n : Fin 100000, 0 ≤ (x4 (ix1 n)).toInt ∧ (x4 (ix1 n)).toInt < 64)
    (hu1a : ∀ (k : Fin 64) (h : Fin 128), u1a (ix2 k h) = x10 (ix2 (Fin.castAdd 32 (Fin.castAdd 64 k)) h))
    (hu1b : ∀ (k : Fin 64) (h : Fin 128), u1b (ix2 k h) = x10 (ix2 (Fin.castAdd 32 (Fin.natAdd 64 k)) h))
    (hu1c : ∀ (k : Fin 32) (h : Fin 128), u1c (ix2 k h) = x10 (ix2 (Fin.natAdd 128 k) h))
    (n : Fin 100000) (h : Fin 128) :
    val_main_v46 (F := Ideal) x0 x1 x2 x3 x4 x5 x6 x7 x8 x9 x10 x11 (ix2 n h)
      = updHid x0 sums cnt nb x3 u1a u1b u1c x11 n h := by
  rw [val_main_v46_apply, val_main_v45_apply, val_main_v42_apply, val_main_v44_apply, val_main_v43_apply,
    val_main_call1_v0_apply, val_main_call1_cst_apply]
  have el : ∀ k : Fin 160, lidx_main_v42 (ix2 n h) k = ix2 n k := fun k =>
    funext fun a => Fin.ext (by match a with | ⟨0, _⟩ => rfl | ⟨1, _⟩ => rfl)
  have er : ∀ k : Fin 160, ridx_main_v42 (ix2 n h) k = ix2 k h := fun k =>
    funext fun a => Fin.ext (by match a with | ⟨0, _⟩ => rfl | ⟨1, _⟩ => rfl)
  have eb : idx_main_v43 (idx_main_v44 (ix2 n h)) = ix1 h :=
    funext fun a => Fin.ext (by match a with | ⟨0, _⟩ => rfl)
  simp only [el, er, eb]
  rw [sum_split_160]
  simp only [cat3_a, cat3_b, cat3_c, recv_ref x0 x1 x2 x5 x6 x7 x8 x9 sums cnt hsums hcnt,
    urow_ref x3 x4 nb hnb hrange, ← hu1a, ← hu1b, ← hu1c]
  unfold updHid
  show max (_ + _) (Ideal.ofBits .f32 0x00000000#32) = _
  rw [Ideal.ofBits_zero_f32]

/-- The reference's result is the update perceptron of the scattered sums and counts. -/
theorem upd_ref
    (hsums : val_main_v25 (F := Ideal) x0 x1 x2 x5 x6 x7 x8 x9 = sums)
    (hcnt : val_main_v29 (F := Ideal) x1 = cnt)
    (hnb : ∀ n : Fin 100000, nb (ix2 n (0 : Fin 1)) = x4 (ix1 n))
    (hrange : ∀ n : Fin 100000, 0 ≤ (x4 (ix1 n)).toInt ∧ (x4 (ix1 n)).toInt < 64)
    (hu1a : ∀ (k : Fin 64) (h : Fin 128), u1a (ix2 k h) = x10 (ix2 (Fin.castAdd 32 (Fin.castAdd 64 k)) h))
    (hu1b : ∀ (k : Fin 64) (h : Fin 128), u1b (ix2 k h) = x10 (ix2 (Fin.castAdd 32 (Fin.natAdd 64 k)) h))
    (hu1c : ∀ (k : Fin 32) (h : Fin 128), u1c (ix2 k h) = x10 (ix2 (Fin.natAdd 128 k) h)) :
    val_main_v50 (F := Ideal) x0 x1 x2 x3 x4 x5 x6 x7 x8 x9 x10 x11 x12 x13
      = updArr x0 sums cnt nb x3 u1a u1b u1c x11 x12 x13 := by
  funext i
  obtain ⟨n, j, rfl⟩ : ∃ (n : Fin 100000) (j : Fin 64), i = ix2 n j := ⟨i 0, i 1, eq_ix2 i⟩
  rw [updArr_ix2, val_main_v50_apply, val_main_v47_apply, val_main_v49_apply, val_main_v48_apply]
  have el : ∀ k : Fin 128, lidx_main_v47 (ix2 n j) k = ix2 n k := fun k =>
    funext fun a => Fin.ext (by match a with | ⟨0, _⟩ => rfl | ⟨1, _⟩ => rfl)
  have er : ∀ k : Fin 128, ridx_main_v47 (ix2 n j) k = ix2 k j := fun k =>
    funext fun a => Fin.ext (by match a with | ⟨0, _⟩ => rfl | ⟨1, _⟩ => rfl)
  have eb : idx_main_v48 (idx_main_v49 (ix2 n j)) = ix1 j :=
    funext fun a => Fin.ext (by match a with | ⟨0, _⟩ => rfl)
  simp only [el, er, eb, updhid_ref x0 x1 x2 x5 x6 x7 x8 x9 x3 x4 x10 x11 sums cnt nb u1a u1b u1c hsums hcnt hnb hrange hu1a hu1b hu1c]
  rfl

end Update

end Cert.ReferenceIdeal.RefValue

end
-- ==== Proof.PreDecode.lean ====
/-
  What the precondition says of the two integer inputs: every source-node id (row 0 of the edge index) is not
  negative, and every graph id lies in [0, 64). Both are read off the predicate's last two conjuncts: an `and` of
  one-bit words is 1 only if both are, and an all-reduction by `and` that is 1 had a 1 at every index.
-/
import proofs.«410165_j28484223107667_3_alg».proof.Pre_finite_inputs
import proofs.«410165_j28484223107667_3_alg».proof.Proof.Gen.Pre_finite_inputs
import Idealize.ShloMosaic.Lib.ReduceAll
import Idealize.ShloMosaic.Lib.ValueIdx

noncomputable section

namespace Cert.Pre_finite_inputs.Decode

open Cert.Pre_finite_inputs Cert.Pre_finite_inputs.Gen Cert.Pre_finite_inputs.Facts Idealize.ShloMosaic Idealize.ShloMosaic.ValueIdx

variable {F : FTy → Type} [FloatOps F]

instance : Subsingleton S_.Idx := ⟨fun a b => funext fun d => d.elim0⟩

/-- The source-node ids: row 0 of the edge index, as a vector. -/
abbrev rowOf (a1 : IVec S2x1000000 32) : IVec S1000000 32 :=
  shapeCast S1000000 (extractStridedSlice S1x1000000 ![0, 0] a1 Gen.slices_S2x1000000_S1x1000000_0_0) Gen.shapeCasts_S1x1000000_S1000000

/-- Under the precondition no source-node id is negative and every graph id is in [0, 64). -/
theorem ranges (a0 : FVec F S100000x64 .f32) (a1 : IVec S2x1000000 32) (a2 : FVec F S1000000x32 .f32) (a3 : FVec F S64x32 .f32)
    (a4 : IVec S100000 32) (a5 : FVec F S1000000x1 .f32) (a6 : FVec F S96x128 .f32) (a7 : FVec F S128 .f32)
    (a8 : FVec F S128x64 .f32) (a9 : FVec F S64 .f32) (a10 : FVec F S160x128 .f32) (a11 : FVec F S128 .f32)
    (a12 : FVec F S128x64 .f32) (a13 : FVec F S64 .f32)
    (h : fn (F := F) a0 a1 a2 a3 a4 a5 a6 a7 a8 a9 a10 a11 a12 a13 = fun _ => 1#1) :
    (∀ e : S1000000.Idx, 0 ≤ (rowOf a1 e).toInt) ∧ (∀ n : S100000.Idx, 0 ≤ (a4 n).toInt ∧ (a4 n).toInt < 64) := by
  have h0 := congrFun h ix0
  dsimp only [fn, fn_part1, fn_part2, fn_part3, fn_part4] at h0
  obtain ⟨h1, hnb⟩ := IntOp.andi_eq_one.1 (h0 : IntOp.andi _ _ = 1#1)
  obtain ⟨-, hrow⟩ := IntOp.andi_eq_one.1 (h1 : IntOp.andi _ _ = 1#1)
  refine ⟨fun e => ?_, fun n => ?_⟩
  · have he := Host.reduce_andi_all _ _ _ _ ix0 hrow e
    have := IntOp.cmpi_sge.1 (he : IntOp.cmpi .sge _ _ = 1#1)
    exact this
  · have hn := Host.reduce_andi_all _ _ _ _ ix0 hnb n
    obtain ⟨hge, hlt⟩ := IntOp.andi_eq_one.1 (hn : IntOp.andi _ _ = 1#1)
    have h1 := IntOp.cmpi_sge.1 (hge : IntOp.cmpi .sge _ _ = 1#1)
    have h2 := IntOp.cmpi_slt.1 (hlt : IntOp.cmpi .slt _ _ = 1#1)
    exact ⟨h1, h2⟩

end Cert.Pre_finite_inputs.Decode

end
-- ==== Proof.Bridge.lean ====
/-
  The two programs' results are one function of the arguments. The kernel program's result is the update perceptron
  of the scattered sums and counts of its message perceptron's output; the reference's is the same once its gathered
  rows, its weight slices and its graph-table rows are named. What joins them: a source id that is not negative is
  kept by the reference's wrap of negative ids, so both programs gather the same rows; a graph id in [0, 64) gathers
  the row the kernel's one-hot product picks; a slice of a weight matrix reads the matrix at the shifted row.
-/
import proofs.«410165_j28484223107667_3_alg».proof.Proof.KHost
import proofs.«410165_j28484223107667_3_alg».proof.Proof.RefValue
import proofs.«410165_j28484223107667_3_alg».proof.Proof.PreDecode
import proofs.«410165_j28484223107667_3_alg».proof.Proof.LibScatterRead
import Idealize.ShloMosaic.Lib.Pipeline.Value
import Idealize.ShloMosaic.Lib.ValueIdx
import Idealize.ShloMosaic.Lib.Affine

set_option maxRecDepth 16384

noncomputable section

namespace Cert.Bridge

open Cert.KernelIdeal Cert.KernelIdeal.Gen Cert.KernelIdeal.KHost Idealize.ShloMosaic Idealize.ShloMosaic.TcCoe Idealize.SL.Sem
open Idealize.ShloMosaic.ValueIdx Cert.NodeModel

variable (m : (ℓ : Loc nD τ sig) → Buf (Elt Ideal) ℓ) (c : Dev nD)

/-! ## The weight slices, read at an element -/

theorem m1a_apply (k : Fin 64) (h : Fin 128) : m1aK m c (ix2 k h) = (m ((c : Thread nD τ).loc main_arg6)) (ix2 (Fin.castAdd 32 k) h) :=
  extractStridedSlice_apply ![0, 0] _ slices_S96x128_S64x128_0_0 (ix2 k h) (ix2 (Fin.castAdd 32 k) h)
    (fun a => match a with | ⟨0, _⟩ => by show k.val = 0 + k.val; omega | ⟨1, _⟩ => by show h.val = 0 + h.val; omega)
theorem m1b_apply (k : Fin 32) (h : Fin 128) : m1bK m c (ix2 k h) = (m ((c : Thread nD τ).loc main_arg6)) (ix2 (Fin.natAdd 64 k) h) :=
  extractStridedSlice_apply ![64, 0] _ slices_S96x128_S32x128_64_0 (ix2 k h) (ix2 (Fin.natAdd 64 k) h)
    (fun a => match a with | ⟨0, _⟩ => by show 64 + k.val = 64 + k.val; rfl | ⟨1, _⟩ => by show h.val = 0 + h.val; omega)
theorem u1a_apply (k : Fin 64) (h : Fin 128) : u1aK m c (ix2 k h) = (m ((c : Thread nD τ).loc main_arg10)) (ix2 (Fin.castAdd 32 (Fin.castAdd 64 k)) h) :=
  extractStridedSlice_apply ![0, 0] _ slices_S160x128_S64x128_0_0 (ix2 k h) (ix2 (Fin.castAdd 32 (Fin.castAdd 64 k)) h)
    (fun a => match a with | ⟨0, _⟩ => by show k.val = 0 + k.val; omega | ⟨1, _⟩ => by show h.val = 0 + h.val; omega)
theorem u1b_apply (k : Fin 64) (h : Fin 128) : u1bK m c (ix2 k h) = (m ((c : Thread nD τ).loc main_arg10)) (ix2 (Fin.castAdd 32 (Fin.natAdd 64 k)) h) :=
  extractStridedSlice_apply ![64, 0] _ slices_S160x128_S64x128_64_0 (ix2 k h) (ix2 (Fin.castAdd 32 (Fin.natAdd 64 k)) h)
    (fun a => match a with | ⟨0, _⟩ => by show 64 + k.val = 64 + k.val; rfl | ⟨1, _⟩ => by show h.val = 0 + h.val; omega)
theorem u1c_apply (k : Fin 32) (h : Fin 128) : u1cK m c (ix2 k h) = (m ((c : Thread nD τ).loc main_arg10)) (ix2 (Fin.natAdd 128 k) h) :=
  extractStridedSlice_apply ![128, 0] _ slices_S160x128_S32x128_128_0 (ix2 k h) (ix2 (Fin.natAdd 128 k) h)
    (fun a => match a with | ⟨0, _⟩ => by show 128 + k.val = 128 + k.val; rfl | ⟨1, _⟩ => by show h.val = 0 + h.val; omega)

/-- The graph ids as a column, read at a node: the node's id. -/
theorem nb_apply (n : Fin 100000) : nbK m c (ix2 n (0 : Fin 1)) = (m ((c : Thread nD τ).loc main_arg4)) (ix1 n) :=
  shapeCast_apply _ shapeCasts_S100000_S100000x1 (ix2 n (0 : Fin 1)) (ix1 n) (by
    rw [Shape.rowMajor_val_one, Shape.rowMajor_val_two]
    show n.val = n.val * 1 + 0
    omega)

/-! ## The gathered source rows -/

/-- The source ids as a column, read at an edge: the edge's source id. -/
theorem rowcol_apply (e : Fin 1000000) :
    (broadcastInDim S1000000x1 ![0] bcast_S1000000_S1000000x1_0 (rowK m c) : IVec S1000000x1 32) (ix2 e (0 : Fin 1)) = rowK m c (ix1 e) :=
  broadcastInDim_apply _ bcast_S1000000_S1000000x1_0 (rowK m c) (ix2 e (0 : Fin 1)) (ix1 e) (fun a => match a with
    | ⟨0, _⟩ => by show e.val = if (1000000 : Nat) = 1 then 0 else e.val; rw [if_neg (by decide)])

/-- The reference's wrapped source ids as a column, read at an edge whose id is not negative: the id itself. -/
theorem ref_rowcol_apply (hrow : ∀ e : S1000000.Idx, 0 ≤ (rowK m c e).toInt) (e : Fin 1000000) :
    Cert.ReferenceIdeal.Read.val_main_v9 (F := Ideal) (m ((c : Thread nD τ).loc main_arg1)) (ix2 e (0 : Fin 1)) = rowK m c (ix1 e) := by
  rw [Cert.ReferenceIdeal.Read.val_main_v9_apply, Cert.ReferenceIdeal.Read.val_main_v8_apply, Cert.ReferenceIdeal.Read.val_main_v5_apply, Cert.ReferenceIdeal.Read.val_main_v4_apply, Cert.ReferenceIdeal.Read.val_main_c_apply]
  have ei : Cert.ReferenceIdeal.Read.idx_main_v9 (ix2 e (0 : Fin 1)) = ix1 e := funext fun a => Fin.ext (by match a with | ⟨0, _⟩ => rfl)
  rw [ei]
  have e1 : Cert.ReferenceIdeal.Read.val_main_v1 (F := Ideal) (m ((c : Thread nD τ).loc main_arg1)) = rowK m c := rfl
  rw [e1]
  have hc : IntOp.cmpi .slt (rowK m c (ix1 e)) 0#32 = 0#1 := by
    apply eq_zero_of_ne_one
    intro hh
    have h1 := IntOp.cmpi_slt.1 hh
    have h2 := hrow (ix1 e)
    simp at h1
    omega
  rw [hc, select_zero]

/-- Both programs gather the same rows of x. -/
theorem xrow_eq (hrow : ∀ e : S1000000.Idx, 0 ≤ (rowK m c e).toInt) (e : Fin 1000000) (k : Fin 64) :
    Cert.ReferenceIdeal.Read.val_main_v10 (F := Ideal) (m ((c : Thread nD τ).loc main_arg0)) (m ((c : Thread nD τ).loc main_arg1)) (ix2 e k) = xrowK m c (ix2 e k) := by
  unfold Cert.ReferenceIdeal.Read.val_main_v10
  rw [Idealize.ShloMosaic.ScatterRead.gather_rows_apply (N := 100000) (by decide)
    Cert.ReferenceIdeal.gather_S100000x64_S1000000x1_S1000000x64_1_0_n_n_0_1_164 rfl rfl rfl rfl rfl rfl rfl]
  rw [show xrowK m c (ix2 e k) = _ from Idealize.ShloMosaic.ScatterRead.gather_rows_apply (N := 100000) (by decide)
    gather_S100000x64_S1000000x1_S1000000x64_1_0_n_n_0_1_164 rfl rfl rfl rfl rfl rfl rfl _ _ e k]
  show (m ((c : Thread nD τ).loc main_arg0)) _ = (m ((c : Thread nD τ).loc main_arg0)) _
  congr 1
  funext a
  apply Fin.ext
  match a with
  | ⟨0, _⟩ =>
    show min (Cert.ReferenceIdeal.Read.val_main_v9 (F := Ideal) (m ((c : Thread nD τ).loc main_arg1)) (ix2 e (0 : Fin 1))).toInt.toNat (100000 - 1)
      = min ((broadcastInDim S1000000x1 ![0] bcast_S1000000_S1000000x1_0 (rowK m c) : IVec S1000000x1 32) (ix2 e (0 : Fin 1))).toInt.toNat (100000 - 1)
    rw [ref_rowcol_apply m c hrow e, rowcol_apply m c e]
  | ⟨1, _⟩ => rfl

/-! ## The scattered sums and counts -/

theorem sums_eq (hrow : ∀ e : S1000000.Idx, 0 ≤ (rowK m c e).toInt) :
    Cert.ReferenceIdeal.Read.val_main_v25 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) = sumsK m c := by
  unfold Cert.ReferenceIdeal.Read.val_main_v25
  rw [Cert.ReferenceIdeal.RefValue.msg_ref (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (xrowK m c) (m1aK m c) (m1bK m c)
    (xrow_eq m c hrow) (m1a_apply m c) (m1b_apply m c)]
  rfl

theorem cnt_eq : Cert.ReferenceIdeal.Read.val_main_v29 (F := Ideal) (m ((c : Thread nD τ).loc main_arg1)) = cntK m c := rfl

/-! ## The results -/

/-- Under the precondition the reference's result is the kernel program's. -/
theorem ref_result
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) = fun _ => 1#1) :
    Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      = updArr (m ((c : Thread nD τ).loc main_arg0)) (sumsK m c) (cntK m c) (nbK m c) (m ((c : Thread nD τ).loc main_arg3)) (u1aK m c) (u1bK m c) (u1cK m c) (m ((c : Thread nD τ).loc main_arg11)) (m ((c : Thread nD τ).loc main_arg12)) (m ((c : Thread nD τ).loc main_arg13)) := by
  obtain ⟨hrow, hnbr⟩ := Cert.Pre_finite_inputs.Decode.ranges _ _ _ _ _ _ _ _ _ _ _ _ _ _ hpre
  exact Cert.ReferenceIdeal.RefValue.upd_ref (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg3)) (m ((c : Thread nD τ).loc main_arg4)) (m ((c : Thread nD τ).loc main_arg10)) (m ((c : Thread nD τ).loc main_arg11)) (m ((c : Thread nD τ).loc main_arg12)) (m ((c : Thread nD τ).loc main_arg13)) (sumsK m c) (cntK m c) (nbK m c)
    (u1aK m c) (u1bK m c) (u1cK m c) (sums_eq m c hrow) (cnt_eq m c) (nb_apply m c) (fun n => hnbr (ix1 n))
    (u1a_apply m c) (u1b_apply m c) (u1c_apply m c)

end Cert.Bridge

end
-- ==== Proof.lean ====
/-
  The certificate of the node model (a message perceptron over the edges, a scatter-mean over the destination nodes,
  an update perceptron over the nodes): the Pallas program and its jnp reference compute one function over the
  extended reals, for source-node ids that are not negative and graph ids in [0, 64).

  Both programs' frames are the generated runs. The idealization rewrote nothing, so `preserves` is trivial. For
  `algebraic`: the kernel program's run ends with its result array at the update perceptron of the scattered sums
  and counts of its message perceptron's output (the two pallas_calls' values, read block by block, and the host
  operations between them); the reference's run ends with its composed term, which is the same function of the
  arguments: the concatenate-then-multiply of the reference is the sum of the kernel's split products, both gather the
  same rows of x once no source id is negative, and the kernel's one-hot product with the graph table is the
  reference's gathered row once every graph id is in the table's range. The sums over edges stay behind the same
  scatter-add on both sides.
-/
import proofs.«410165_j28484223107667_3_alg».proof.Defs
import proofs.«410165_j28484223107667_3_alg».proof.Proof.Gen.Kernel
import proofs.«410165_j28484223107667_3_alg».proof.Proof.Gen.Kernel.Frame
import proofs.«410165_j28484223107667_3_alg».proof.Proof.Gen.KernelIdeal
import proofs.«410165_j28484223107667_3_alg».proof.Proof.Gen.KernelIdeal.Frame
import proofs.«410165_j28484223107667_3_alg».proof.Proof.Gen.ReferenceIdeal
import proofs.«410165_j28484223107667_3_alg».proof.Proof.Gen.Pre_finite_inputs
import proofs.«410165_j28484223107667_3_alg».proof.Proof.KRun
import proofs.«410165_j28484223107667_3_alg».proof.Proof.KValue
import proofs.«410165_j28484223107667_3_alg».proof.Proof.RefRead
import proofs.«410165_j28484223107667_3_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two idealized programs, run from memories that agree on the arguments, end with equal results: the kernel
    program's result array at the last boundary's contents, which are the update perceptron of its scattered sums and
    counts; the reference's at its composed term, the same function of the arguments under the precondition. -/
theorem algebraic : Cert.algebraic_KernelIdeal_ReferenceIdeal := by
  intro m ρ m' ρ' hpre hagree
  refine ⟨fun c => Cert.KernelIdeal.Gen.W6 m ρ c (Proc.devRef .tc Cert.KernelIdeal.main_v20),
    Cert.KernelIdeal.ValueRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq]
  show _ = Cert.KernelIdeal.Gen.W6 m ρ c (Proc.devRef .tc Cert.KernelIdeal.main_v20)
  rw [Cert.KernelIdeal.KValue.result m ρ c]
  obtain ⟨h0, h1, h2, h3, h4, h5, h6, h7, h8, h9, h10, h11, h12, h13⟩ := hagree c
  rw [h0, h1, h2, h3, h4, h5, h6, h7, h8, h9, h10, h11, h12, h13]
  exact Cert.Bridge.ref_result m c (hpre c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
